-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x256 : Shape := ⟨2, ![2048, 256]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S1024x2048 .f32) (main_arg1 : FVec F S2048x256 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S1024x2048 : Shape := ⟨2, ![1024, 2048]⟩
abbrev S2048x256 : Shape := ⟨2, ![2048, 256]⟩
abbrev S1024x256 : Shape := ⟨2, ![1024, 256]⟩
abbrev S256x512 : Shape := ⟨2, ![256, 512]⟩
abbrev S512x256 : Shape := ⟨2, ![512, 256]⟩
abbrev S256x256 : Shape := ⟨2, ![256, 256]⟩
abbrev S1024x32x8 : Shape := ⟨3, ![1024, 32, 8]⟩
abbrev S8x32x1024 : Shape := ⟨3, ![8, 32, 1024]⟩
abbrev S32x1024 : Shape := ⟨2, ![32, 1024]⟩
abbrev S8x32x128 : Shape := ⟨3, ![8, 32, 128]⟩
abbrev S32x128 : Shape := ⟨2, ![32, 128]⟩
abbrev S32x128x128 : Shape := ⟨3, ![32, 128, 128]⟩
abbrev S1x32x128 : Shape := ⟨3, ![1, 32, 128]⟩
abbrev S32x128x1 : Shape := ⟨3, ![32, 128, 1]⟩
abbrev S32x1x128 : Shape := ⟨3, ![32, 1, 128]⟩
abbrev S1024x32 : Shape := ⟨2, ![1024, 32]⟩
abbrev S1024x2080 : Shape := ⟨2, ![1024, 2080]⟩

abbrev nBuf : Space → Nat
  | .hbm => 8
  | .vmem => 13
  | .smem => 0
  | _ => 0

abbrev bufTy : (tb : Table) → Fin (tcTables nBuf tb) → BufTy
  | .hbm, ⟨0, _⟩ => ⟨S1024x2048, .f32⟩
  | .hbm, ⟨1, _⟩ => ⟨S2048x256, .f32⟩
  | .hbm, ⟨2, _⟩ => ⟨S1024x256, .f32⟩
  | .hbm, ⟨3, _⟩ => ⟨S1024x32x8, .f32⟩
  | .hbm, ⟨4, _⟩ => ⟨S8x32x1024, .f32⟩
  | .hbm, ⟨5, _⟩ => ⟨S32x1024, .f32⟩
  | .hbm, ⟨6, _⟩ => ⟨S1024x32, .f32⟩
  | .hbm, ⟨7, _⟩ => ⟨S1024x2080, .f32⟩
  | .local _ .vmem, ⟨0, _⟩ => ⟨S256x512, .f32⟩
  | .local _ .vmem, ⟨1, _⟩ => ⟨S256x512, .f32⟩
  | .local _ .vmem, ⟨2, _⟩ => ⟨S512x256, .f32⟩
  | .local _ .vmem, ⟨3, _⟩ => ⟨S512x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S8x32x128, .f32⟩
  | .local _ .vmem, ⟨8, _⟩ => ⟨S8x32x128, .f32⟩
  | .local _ .vmem, ⟨9, _⟩ => ⟨S8x32x128, .f32⟩
  | .local _ .vmem, ⟨10, _⟩ => ⟨S8x32x128, .f32⟩
  | .local _ .vmem, ⟨11, _⟩ => ⟨S32x128, .f32⟩
  | .local _ .vmem, ⟨12, _⟩ => ⟨S32x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S1024x256_S1024x32x8 : S1024x256.ShapeCasts S1024x32x8
  transposes_S1024x32x8_S8x32x1024_2_1_0 : S1024x32x8.Transposes [2, 1, 0] S8x32x1024
  inb_S32x128_S32x128_0_0 : ∀ a, (![0, 0] : Fin 2 → Nat) a + S32x128.size a ≤ S32x128.size a
  h_S32x128 : 0 < S32x128.numel
  inb_S8x32x128_S1x32x128_0_0_0 : ∀ a, (![0, 0, 0] : Fin 3 → Nat) a + S1x32x128.size a ≤ S8x32x128.size a
  h_S1x32x128 : 0 < S1x32x128.numel
  shapeCasts_S1x32x128_S32x128 : S1x32x128.ShapeCasts S32x128
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  inb_S8x32x128_S1x32x128_1_0_0 : ∀ a, (![1, 0, 0] : Fin 3 → Nat) a + S1x32x128.size a ≤ S8x32x128.size a
  inb_S8x32x128_S1x32x128_2_0_0 : ∀ a, (![2, 0, 0] : Fin 3 → Nat) a + S1x32x128.size a ≤ S8x32x128.size a
  inb_S8x32x128_S1x32x128_3_0_0 : ∀ a, (![3, 0, 0] : Fin 3 → Nat) a + S1x32x128.size a ≤ S8x32x128.size a
  inb_S8x32x128_S1x32x128_4_0_0 : ∀ a, (![4, 0, 0] : Fin 3 → Nat) a + S1x32x128.size a ≤ S8x32x128.size a
  inb_S8x32x128_S1x32x128_5_0_0 : ∀ a, (![5, 0, 0] : Fin 3 → Nat) a + S1x32x128.size a ≤ S8x32x128.size a
  inb_S8x32x128_S1x32x128_6_0_0 : ∀ a, (![6, 0, 0] : Fin 3 → Nat) a + S1x32x128.size a ≤ S8x32x128.size a
  inb_S8x32x128_S1x32x128_7_0_0 : ∀ a, (![7, 0, 0] : Fin 3 → Nat) a + S1x32x128.size a ≤ S8x32x128.size a
  reduces_S32x128x128_S32x128 : S32x128x128.Reduces [2] S32x128
  shapeCasts_S32x128_S32x128 : S32x128.ShapeCasts S32x128
  transposes_S32x1024_S1024x32_1_0 : S32x1024.Transposes [1, 0] S1024x32
  concatenates_S1024x2048_S1024x32_S1024x2080_d1 : Shape.Concatenates [S1024x2048, S1024x32] S1024x2080 1
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x2048.size a
  hwx0_0 : ∀ i : grid0.Coords, EltTy.bits .f32 = 32 ∨ (Rect.block (s := S1024x2048) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x256.size a
  hwx0_1 : ∀ i : grid0.Coords, EltTy.bits .f32 = 32 ∨ (Rect.block (s := S2048x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x256.size a
  hwx0_2 : ∀ i : grid0.Coords, EltTy.bits .f32 = 32 ∨ (Rect.block (s := S1024x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x128.size a ≤ S8x32x1024.size a
  hwx1_0 : ∀ i : grid1.Coords, EltTy.bits .f32 = 32 ∨ (Rect.block (s := S8x32x1024) S8x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x32x128.size a ≤ S8x32x1024.size a
  hwx1_1 : ∀ i : grid1.Coords, EltTy.bits .f32 = 32 ∨ (Rect.block (s := S8x32x1024) S8x32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x1024.size a
  hwx1_2 : ∀ i : grid1.Coords, EltTy.bits .f32 = 32 ∨ (Rect.block (s := S32x1024) S32x128.size (cc1_transform_2 i) (hinb1_2 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S8x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x2048 : Shape := ⟨2, ![1024, 2048]⟩
abbrev S2048x256 : Shape := ⟨2, ![2048, 256]⟩
abbrev S1024x256 : Shape := ⟨2, ![1024, 256]⟩
abbrev S1024x32x8 : Shape := ⟨3, ![1024, 32, 8]⟩
abbrev S1024x32x8x1 : Shape := ⟨4, ![1024, 32, 8, 1]⟩
abbrev S32x8x1024 : Shape := ⟨3, ![32, 8, 1024]⟩
abbrev S1x32x8x1024 : Shape := ⟨4, ![1, 32, 8, 1024]⟩
abbrev S1024x32x8x1024 : Shape := ⟨4, ![1024, 32, 8, 1024]⟩
abbrev S_ : Shape := ⟨0, ![]⟩
abbrev S1024x32x1024 : Shape := ⟨3, ![1024, 32, 1024]⟩
abbrev S1024x32 : Shape := ⟨2, ![1024, 32]⟩
abbrev S1024x2080 : Shape := ⟨2, ![1024, 2080]⟩

abbrev nBuf : Space → Nat
  | .hbm => 18
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x256, .f32⟩
  | .hbm, ⟨2, _⟩ => ⟨S1024x256, .f32⟩
  | .hbm, ⟨3, _⟩ => ⟨S1024x32x8, .f32⟩
  | .hbm, ⟨4, _⟩ => ⟨S1024x32x8x1, .f32⟩
  | .hbm, ⟨5, _⟩ => ⟨S32x8x1024, .f32⟩
  | .hbm, ⟨6, _⟩ => ⟨S1x32x8x1024, .f32⟩
  | .hbm, ⟨7, _⟩ => ⟨S1024x32x8x1024, .f32⟩
  | .hbm, ⟨8, _⟩ => ⟨S1024x32x8x1024, .f32⟩
  | .hbm, ⟨9, _⟩ => ⟨S1024x32x8x1024, .f32⟩
  | .hbm, ⟨10, _⟩ => ⟨S1024x32x8x1024, .f32⟩
  | .hbm, ⟨11, _⟩ => ⟨S_, .f32⟩
  | .hbm, ⟨12, _⟩ => ⟨S1024x32x1024, .f32⟩
  | .hbm, ⟨13, _⟩ => ⟨S1024x32x1024, .f32⟩
  | .hbm, ⟨14, _⟩ => ⟨S1024x32x1024, .f32⟩
  | .hbm, ⟨15, _⟩ => ⟨S_, .f32⟩
  | .hbm, ⟨16, _⟩ => ⟨S1024x32, .f32⟩
  | .hbm, ⟨17, _⟩ => ⟨S1024x2080, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S1024x256_S1024x32x8 : S1024x256.ShapeCasts S1024x32x8
  bcast_S1024x32x8_S1024x32x8x1_0_1_2 : S1024x32x8.BroadcastsInDim S1024x32x8x1 (![0, 1, 2] : Fin 3 → Fin S1024x32x8x1.rank)
  transposes_S1024x32x8_S32x8x1024_1_2_0 : S1024x32x8.Transposes [1, 2, 0] S32x8x1024
  bcast_S32x8x1024_S1x32x8x1024_1_2_3 : S32x8x1024.BroadcastsInDim S1x32x8x1024 (![1, 2, 3] : Fin 3 → Fin S1x32x8x1024.rank)
  bcast_S1024x32x8x1_S1024x32x8x1024_0_1_2_3 : S1024x32x8x1.BroadcastsInDim S1024x32x8x1024 (![0, 1, 2, 3] : Fin 4 → Fin S1024x32x8x1024.rank)
  bcast_S1x32x8x1024_S1024x32x8x1024_0_1_2_3 : S1x32x8x1024.BroadcastsInDim S1024x32x8x1024 (![0, 1, 2, 3] : Fin 4 → Fin S1024x32x8x1024.rank)
  reducesTo_S1024x32x8x1024_S1024x32x1024_d2 : S1024x32x8x1024.ReducesTo [2] S1024x32x1024
  h_S_ : 0 < S_.numel
  reducesTo_S1024x32x1024_S1024x32_d2 : S1024x32x1024.ReducesTo [2] S1024x32
  concatenates_S1024x2048_S1024x32_S1024x2080_d1 : Shape.Concatenates [S1024x2048, S1024x32] S1024x2080 1
  dot_S1024x2048_S2048x256_S1024x256_1_0_0_1_n_n_wf : DotDims.WF S1024x2048 S2048x256 S1024x256 [1] [0] [0] [1] [] []

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

class Facts : Prop extends Facts₀ where

variable [Facts]
-- ==== Proof.MatData.lean ====
/- The product stage's proof data. The first kernel region computes m = x · W block by block: its grid is
   4 × 4, point t = 4·i + k takes the 256 × 512 block (i, k) of x and the 512 × 256 block (k, 0) of W, adds their
   product into a 256 × 256 accumulator kept in scratch memory (reset to zero when k = 0), and when k = 3 copies
   the accumulator into row block i of the result. Stated here at a parameter V, the buffer contents the region
   is entered from: the blocks, the accumulator after each point as a recursion on the point, and the data the
   pipeline rule asks for. -/
import proofs.«101916_j52879637348745_1_alg».proof.Proof.Gen.KernelIdeal.Launch
import proofs.«101916_j52879637348745_1_alg».proof.Proof.Gen.KernelIdeal.Skeleton
import proofs.«101916_j52879637348745_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.KernelIdeal.Mat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x at point t: rows 256·i …, columns 512·k …. -/
abbrev xblk (c : Dev nD) (t : Fin cfg0.N) : Vec F S256x512 .f32 := iblk V c 0 t
/-- The block of W at point t: rows 512·k …, all 256 columns. -/
abbrev wblk (c : Dev nD) (t : Fin cfg0.N) : Vec F S512x256 .f32 := iblk V c 1 t

/-- The accumulator after point n: the block product added to zero at the first point of a row block
    (n ≡ 0 mod 4), to what the point before left otherwise. -/
def accAt (c : Dev nD) : (n : ℕ) → n < cfg0.N → Vec F S256x256 .f32
  | 0, h => k0_pay2 (xblk V c ⟨0, h⟩) (wblk V c ⟨0, h⟩) (k0_pay1 (F := F))
  | n + 1, h => k0_pay2 (xblk V c ⟨n + 1, h⟩) (wblk V c ⟨n + 1, h⟩)
      (if (n + 1) % 4 = 0 then (k0_pay1 (F := F)) else accAt c n (Nat.lt_of_succ_lt h))

/-- The scratch accumulator, whole. -/
abbrev scM : Memref sig .tc .vmem S256x256 .f32 := Memref.whole cc0_scratch0

/-- The scoped buffers of the core that are neither this region's staging buffers nor its accumulator (the
    second region's staging buffers), each whole at some contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's invariant before point n: before the first point the accumulator holds anything; afterwards
    what the point before left in it. The other scoped buffers and the generator register ride along. -/
def PhiM (c : Dev nD) : (n : ℕ) → n ≤ cfg0.N → sProp 𝕄
  | 0, _ => Pipeline.ΦA spec0 c
  | n + 1, hn => iprop((owns (c : Thread nD τ) scM fullShare (accAt V c n hn) ∗ others c) ∗ (∃ r, prngReg c r))

/-- The proof data of the product stage on core c. After the body each input's buffer holds its block; the
    result's buffer holds the accumulator (consulted only where the body stores it, k = 3). -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := PhiM V c t.val (Nat.le_of_lt_succ t.isLt)
  q _ := fullShare
  owed _ := 0

end Cert.KernelIdeal.Mat

end
-- ==== Proof.DiscData.lean ====
/- The all-pairs stage's proof data. The second kernel region has an 8 × 8 grid: point t = 8·i + j takes two
   8 × 32 × 128 blocks of the transposed product mT (the "query" columns 128·i … and the "key" columns 128·j …),
   forms for every kernel index k, query column r and key column s the L1 distance over the 8 features, applies
   exp(−·), sums over the 128 key columns and adds the result into the 32 × 128 output block i, which it first
   zeroes when j = 0; the block is written back when j = 7. Both input windows stage the same array. Stated at
   a parameter V, the buffer contents the region is entered from. -/
import proofs.«101916_j52879637348745_1_alg».proof.Proof.Gen.KernelIdeal.Launch
import proofs.«101916_j52879637348745_1_alg».proof.Proof.Gen.KernelIdeal.Skeleton
import proofs.«101916_j52879637348745_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.KernelIdeal.Disc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block at point t: all features and kernels, columns 128·i …. -/
abbrev qblk (c : Dev nD) (t : Fin cfg1.N) : Vec F S8x32x128 .f32 := iblk V c 0 t
/-- The key block at point t: all features and kernels, columns 128·j …. -/
abbrev kblk (c : Dev nD) (t : Fin cfg1.N) : Vec F S8x32x128 .f32 := iblk V c 1 t

/-- Feature slice d of a block, as the body loads it. -/
abbrev sl0 : Rect S8x32x128 := Rect.unit (s := S8x32x128) ![0, 0, 0] S1x32x128.size inb_S8x32x128_S1x32x128_0_0_0
abbrev sl1 : Rect S8x32x128 := Rect.unit (s := S8x32x128) ![1, 0, 0] S1x32x128.size inb_S8x32x128_S1x32x128_1_0_0
abbrev sl2 : Rect S8x32x128 := Rect.unit (s := S8x32x128) ![2, 0, 0] S1x32x128.size inb_S8x32x128_S1x32x128_2_0_0
abbrev sl3 : Rect S8x32x128 := Rect.unit (s := S8x32x128) ![3, 0, 0] S1x32x128.size inb_S8x32x128_S1x32x128_3_0_0
abbrev sl4 : Rect S8x32x128 := Rect.unit (s := S8x32x128) ![4, 0, 0] S1x32x128.size inb_S8x32x128_S1x32x128_4_0_0
abbrev sl5 : Rect S8x32x128 := Rect.unit (s := S8x32x128) ![5, 0, 0] S1x32x128.size inb_S8x32x128_S1x32x128_5_0_0
abbrev sl6 : Rect S8x32x128 := Rect.unit (s := S8x32x128) ![6, 0, 0] S1x32x128.size inb_S8x32x128_S1x32x128_6_0_0
abbrev sl7 : Rect S8x32x128 := Rect.unit (s := S8x32x128) ![7, 0, 0] S1x32x128.size inb_S8x32x128_S1x32x128_7_0_0

/-- What the body stores into the output block: the previous contents plus, per (kernel, query column), the sum
    over the key columns of exp(−L1 distance), as the body's payloads compose. -/
def discStep (q k : Vec F S8x32x128 .f32) (prev : Vec F S32x128 .f32) : Vec F S32x128 .f32 :=
  k1_pay1
    (k1_pay5 (k1_pay3 (View.ld q sl0) (View.ld k sl0) (View.ld q sl1) (View.ld k sl1)) (k1_pay4 (View.ld q sl2) (View.ld k sl2))
      (View.ld q sl3) (View.ld k sl3) (View.ld q sl4) (View.ld k sl4) (View.ld q sl5) (View.ld k sl5))
    (k1_pay6 (View.ld q sl6)) (View.ld k sl6) (View.ld q sl7) (View.ld k sl7) prev

/-- The output block's staging buffer after point n: the step added to zero at the first point of a query block
    (n ≡ 0 mod 8), to what the point before left otherwise. -/
def outAt (c : Dev nD) : (n : ℕ) → n < cfg1.N → Vec F S32x128 .f32
  | 0, h => discStep (qblk V c ⟨0, h⟩) (kblk V c ⟨0, h⟩) (k1_pay2 (F := F))
  | n + 1, h => discStep (qblk V c ⟨n + 1, h⟩) (kblk V c ⟨n + 1, h⟩)
      (if (n + 1) % 8 = 0 then (k1_pay2 (F := F)) else outAt c n (Nat.lt_of_succ_lt h))

/-- The proof data of the all-pairs stage on core c. The two input windows share the array mT, each holding
    half of it; the kernel has no scratch, so the invariant is the library's for such kernels. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t.val t.isLt
  Φ _ := Pipeline.ΦA spec1 c
  q w := match w with
    | ⟨0, _⟩ => fullShare.left
    | ⟨1, _⟩ => fullShare.right
    | ⟨2, _⟩ => fullShare
  owed _ := 0

end Cert.KernelIdeal.Disc

end
-- ==== Proof.RunDefs.lean ====
/- The run of the kernel program. @main is: the product region, two host operations (a reshape and a transpose),
   the all-pairs region, two host operations (a transpose and the concatenate). Between two items the core holds
   every unscoped buffer at a known valuation: the launch memory, then what each item writes. Each region is
   entered from the valuation before it and left at the one after it, its result array at what its write-backs
   leave; so the last valuation names the program's result, and every argument array is as launched. -/
import proofs.«101916_j52879637348745_1_alg».proof.Proof.MatData
import proofs.«101916_j52879637348745_1_alg».proof.Proof.DiscData
import proofs.«101916_j52879637348745_1_alg».proof.Proof.Gen.KernelIdeal.Regions
import Idealize.ShloMosaic.Lib.Pipeline.RegionsLoop

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave, and the valuations between the items -/

/-- The launch contents, read at the TensorCore's references: what the product region is entered from. -/
abbrev Vin0 : (c : Dev nD) → (b : Ref sig .tc) → Buf (Elt F) ((c : Thread nD τ).loc b) := fun c b => Gen.V0 m c b

/-- The product array after the first region: its row blocks as the write-backs leave them. -/
def mOut (c : Dev nD) : Buf (Elt F) ((c : Thread nD τ).loc main_v0) := (Mat.dat0 (Vin0 m) c).arrAt 2 cfg0.N

/-- The valuation the second region is entered from: the launch contents with the product array at `mOut`, then the
    reshape and the transpose. -/
abbrev W2 (c : Dev nD) : Valuation τ sig (Elt F) := StableHlo.after hostOps1 (Function.update (Gen.V0 m c) main_v0 (mOut m c))
abbrev Vin1 : (c : Dev nD) → (b : Ref sig .tc) → Buf (Elt F) ((c : Thread nD τ).loc b) := fun c b => W2 m c b

/-- The feature array after the second region: its column blocks as the write-backs leave them. -/
def dOut (c : Dev nD) : Buf (Elt F) ((c : Thread nD τ).loc main_v3) := (Disc.dat1 (Vin1 m) c).arrAt 2 cfg1.N

/-- What the regions leave in the buffers they may change. -/
def outs : Gen.Outs (F := F) := fun J r c =>
  if h : r = main_v0 then h ▸ mOut m c
  else if h' : r = main_v3 then h' ▸ dOut m c
  else m ((c : Thread nD τ).loc r)

theorem outs_v0 (J : ℕ) (c : Dev nD) : outs m J main_v0 c = mOut m c := by
  unfold outs; rw [dif_pos rfl]
theorem outs_v3 (J : ℕ) (c : Dev nD) : outs m J main_v3 c = dOut m c := by
  unfold outs; rw [dif_neg (by decide), dif_pos rfl]

theorem V1_eq (c : Dev nD) : Gen.V1 m (outs m) c = Function.update (Gen.V0 m c) main_v0 (mOut m c) := by
  unfold Gen.V1; rw [outs_v0]
theorem V2_eq (c : Dev nD) : Gen.V2 m (outs m) c = W2 m c := by
  unfold Gen.V2; rw [V1_eq]
theorem V3_eq (c : Dev nD) : Gen.V3 m (outs m) c = Function.update (W2 m c) main_v3 (dOut m c) := by
  unfold Gen.V3; rw [outs_v3, V2_eq]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => Mat.dat0 (Vin0 m) c
  | ⟨1, _⟩ => fun c => Disc.dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

end Cert.KernelIdeal.Run

end
-- ==== Proof.MatBody.lean ====
/- The product stage's body. The first kernel region computes m = x · W block by block on a 4 × 4 grid, point
   t = 4·i + k. Here: the two conditionals of the body in closed form over the grid (the accumulator is reset
   where k = 0; the result's block is stored where k = 3, and its window is idle elsewhere); each input's staging
   buffer holds its block at every point; the body's triple in each of the three control cases, the accumulator
   and the result's buffer left at NAMED values (the block product added to zero, or to what the accumulator
   held); and from these the obligation the pipeline rule asks of the body at every point, against the
   accumulator's recursion on the point, together with the invariant's two ends. Generic in the float model. -/
import proofs.«101916_j52879637348745_1_alg».proof.Proof.MatData
import Idealize.ShloMosaic.Lib.Pipeline.Value

set_option maxRecDepth 16384

noncomputable section

namespace Cert.KernelIdeal.Mat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- The first conditional's condition (k = 0), the body's scalar chain substituted. -/
abbrev condZ (i : grid0.Coords) : Prop :=
  (Scalar.cmpi .ne (Scalar.extui (Scalar.cmpi .eq (BitVec.ofNat 32 (i 1).val) 0#32)) 0#32) = 1#1
/-- The second conditional's condition (k = 3). -/
abbrev condL (i : grid0.Coords) : Prop := k0_cond2 i = 1#1

theorem hcondZ : ∀ t : Fin cfg0.N, condZ (grid0.coords t) ↔ t.val % 4 = 0 :=
  (by decide +kernel : ∀ t : Fin grid0.N, condZ (grid0.coords t) ↔ t.val % 4 = 0)
theorem hcondL : ∀ t : Fin cfg0.N, condL (grid0.coords t) ↔ t.val % 4 = 3 :=
  (by decide +kernel : ∀ t : Fin grid0.N, condL (grid0.coords t) ↔ t.val % 4 = 3)

/-- The inputs are never idle. -/
private theorem live_0 : ∀ t : Fin cfg0.N, cfg0.idle 0 (grid0.coords t) = false := by decide +kernel
private theorem live_1 : ∀ t : Fin cfg0.N, cfg0.idle 1 (grid0.coords t) = false := by decide +kernel
/-- The result's window is idle, and not written back, off the last point of a row block; live on it. -/
private theorem idle_2 : ∀ t : Fin cfg0.N, ¬condL (grid0.coords t) → cfg0.idle 2 (grid0.coords t) = true := by decide +kernel
private theorem noFlush_2 : ∀ t : Fin cfg0.N, ¬condL (grid0.coords t) → (cfg0.win 2).flush t = false := by decide +kernel
private theorem live_2 : ∀ t : Fin cfg0.N, condL (grid0.coords t) → cfg0.idle 2 (grid0.coords t) = false := by decide +kernel

/-- The whole-shape rectangle's offsets are zeros. -/
private theorem hz2 : (![0, 0] : Fin 2 → ℕ) = fun _ => 0 := by funext a; fin_cases a <;> rfl

/-- A list of stores whose last is through the whole-shape rectangle covers the shape. -/
private theorem cover_last (w : S256x256.Idx → Elt F .f32) (L : List (View.Piece (Elt F) S256x256 .f32)) (y : S256x256.Idx) :
    ∃ p ∈ ((⟨Rect.unit ![0, 0] S256x256.size inb_S256x256_S256x256_0_0, w⟩ : View.Piece (Elt F) S256x256 .f32) :: L), y ∈ p.1.set :=
  ⟨_, List.mem_cons_self, View.mem_set_unit_zero hz2 inb_S256x256_S256x256_0_0 y⟩

set_option maxHeartbeats 1000000 in
/-- The body where neither conditional fires (k = 1, 2): the accumulator gains the block product; the inputs' and
    the result's buffers are as they were. -/
theorem run_mid (c : Dev nD) (i : grid0.Coords) (arg2 : Memref sig .tc .vmem S256x512 .f32) (harg2 : arg2.IsWhole)
    (arg3 : Memref sig .tc .vmem S512x256 .f32) (harg3 : arg3.IsWhole) (arg4 : Memref sig .tc .vmem S256x256 .f32) (harg4 : arg4.IsWhole)
    (arg5 : Memref sig .tc .vmem S256x256 .f32) (harg5 : arg5.IsWhole) (hc0 : ¬condZ i) (hc1 : ¬condL i)
    (x0 : Vec F S256x512 .f32) (w0 : Vec F S512x256 .f32) (o0 : Vec F S256x256 .f32) (a0 : Vec F S256x256 .f32)
    (E : Set ℕ) (K : PUnit → sProp 𝕄) :
    iprop(owns (c : Thread nD τ) arg2 fullShare x0 ∗ owns (c : Thread nD τ) arg3 fullShare w0
        ∗ owns (c : Thread nD τ) arg4 fullShare o0 ∗ owns (c : Thread nD τ) arg5 fullShare a0
        ∗ (iprop(owns (c : Thread nD τ) arg2 fullShare x0 ∗ owns (c : Thread nD τ) arg3 fullShare w0
            ∗ owns (c : Thread nD τ) arg4 fullShare o0 ∗ owns (c : Thread nD τ) arg5 fullShare (k0_pay2 x0 w0 a0)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_last _ _),
    View.canon_cons_unit_zero hz2]
  simp only [View.readAt_eq_ld, harg2.read_unread, harg3.read_unread, harg5.read_unread,
    View.ld_unit_zero (S := S256x512) hz2, View.ld_unit_zero (S := S512x256) hz2, View.ld_unit_zero (S := S256x256) hz2]

set_option maxHeartbeats 1000000 in
/-- The body at the first point of a row block (k = 0): the accumulator, whatever it held, is reset and gains the
    block product; the inputs' and the result's buffers are as they were. -/
theorem run_first (c : Dev nD) (i : grid0.Coords) (arg2 : Memref sig .tc .vmem S256x512 .f32) (harg2 : arg2.IsWhole)
    (arg3 : Memref sig .tc .vmem S512x256 .f32) (harg3 : arg3.IsWhole) (arg4 : Memref sig .tc .vmem S256x256 .f32) (harg4 : arg4.IsWhole)
    (arg5 : Memref sig .tc .vmem S256x256 .f32) (harg5 : arg5.IsWhole) (hc0 : condZ i) (hc1 : ¬condL i)
    (x0 : Vec F S256x512 .f32) (w0 : Vec F S512x256 .f32) (o0 : Vec F S256x256 .f32)
    (E : Set ℕ) (K : PUnit → sProp 𝕄) :
    iprop(owns (c : Thread nD τ) arg2 fullShare x0 ∗ owns (c : Thread nD τ) arg3 fullShare w0
        ∗ owns (c : Thread nD τ) arg4 fullShare o0 ∗ (∃ a, owns (c : Thread nD τ) arg5 fullShare a)
        ∗ (iprop(owns (c : Thread nD τ) arg2 fullShare x0 ∗ owns (c : Thread nD τ) arg3 fullShare w0
            ∗ owns (c : Thread nD τ) arg4 fullShare o0 ∗ owns (c : Thread nD τ) arg5 fullShare (k0_pay2 x0 w0 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%a, %f5, -, H5⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_last _ _),
    View.canon_cons_unit_zero hz2]
  sl_unfold_words
  simp only [View.readAt_eq_ld, harg2.read_unread, harg3.read_unread, View.readCov_unit_zero (S := S256x256) _ hz2,
    View.ld_unit_zero (S := S256x512) hz2, View.ld_unit_zero (S := S512x256) hz2]

set_option maxHeartbeats 1000000 in
/-- The body at the last point of a row block (k = 3): the accumulator gains the block product, and the result's
    buffer, whatever it held, is left at the accumulator's new value. -/
theorem run_last (c : Dev nD) (i : grid0.Coords) (arg2 : Memref sig .tc .vmem S256x512 .f32) (harg2 : arg2.IsWhole)
    (arg3 : Memref sig .tc .vmem S512x256 .f32) (harg3 : arg3.IsWhole) (arg4 : Memref sig .tc .vmem S256x256 .f32) (harg4 : arg4.IsWhole)
    (arg5 : Memref sig .tc .vmem S256x256 .f32) (harg5 : arg5.IsWhole) (hc0 : ¬condZ i) (hc1 : condL i)
    (x0 : Vec F S256x512 .f32) (w0 : Vec F S512x256 .f32) (a0 : Vec F S256x256 .f32)
    (E : Set ℕ) (K : PUnit → sProp 𝕄) :
    iprop(owns (c : Thread nD τ) arg2 fullShare x0 ∗ owns (c : Thread nD τ) arg3 fullShare w0
        ∗ (∃ o, owns (c : Thread nD τ) arg4 fullShare o) ∗ owns (c : Thread nD τ) arg5 fullShare a0
        ∗ (iprop(owns (c : Thread nD τ) arg2 fullShare x0 ∗ owns (c : Thread nD τ) arg3 fullShare w0
            ∗ owns (c : Thread nD τ) arg4 fullShare (k0_pay2 x0 w0 a0) ∗ owns (c : Thread nD τ) arg5 fullShare (k0_pay2 x0 w0 a0)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%o, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (cover_last _ _),
      View.canon_cons_unit_zero hz2]
    sl_unfold_words
    simp only [View.readAt_eq_ld, harg2.read_unread, harg3.read_unread, harg5.read_unread,
      View.readCov_unit_zero (S := S256x256) _ hz2,
      View.ld_unit_zero (S := S256x512) hz2, View.ld_unit_zero (S := S512x256) hz2, View.ld_unit_zero (S := S256x256) hz2]
  iexists _; isplitr
  swap; · iexact H5
  ipureintro
  sl_unfold_words
  rw [View.read_writes_eq_canon _ _ _ (cover_last _ _),
    View.canon_cons_unit_zero hz2]
  simp only [View.readAt_eq_ld, harg2.read_unread, harg3.read_unread, harg5.read_unread,
    View.ld_unit_zero (S := S256x512) hz2, View.ld_unit_zero (S := S512x256) hz2, View.ld_unit_zero (S := S256x256) hz2]

/-! ## The accumulator's recursion, read at a point -/

/-- At the first point of a row block the accumulator is the block product added to zero. -/
theorem accAt_first (c : Dev nD) (t : Fin cfg0.N) (h0 : t.val % 4 = 0) :
    accAt V c t.val t.isLt = k0_pay2 (xblk V c t) (wblk V c t) (k0_pay1 (F := F)) := by
  obtain ⟨n, hn⟩ := t
  cases n with
  | zero => rfl
  | succ n => exact congrArg (k0_pay2 (xblk V c ⟨n + 1, hn⟩) (wblk V c ⟨n + 1, hn⟩)) (if_pos h0)

/-- At any other point it is the block product added to what the point before left. -/
theorem accAt_next (c : Dev nD) (t : Fin cfg0.N) (h0 : ¬t.val % 4 = 0) :
    accAt V c t.val t.isLt = k0_pay2 (xblk V c t) (wblk V c t)
      (accAt V c (t.val - 1) (Nat.lt_of_le_of_lt (Nat.sub_le _ _) t.isLt)) := by
  obtain ⟨n, hn⟩ := t
  cases n with
  | zero => exact absurd (Nat.zero_mod 4) h0
  | succ n => exact congrArg (k0_pay2 (xblk V c ⟨n + 1, hn⟩) (wblk V c ⟨n + 1, hn⟩)) (if_neg h0)

/-! ## The invariant, read at a point -/

/-- What the launch hands the region: the accumulator at some contents, the other scoped buffers, the register. -/
theorem PhiA0_eq (c : Dev nD) :
    (Pipeline.ΦA spec0 c : sProp 𝕄)
      = iprop(((∃ d, owns (c : Thread nD τ) scM fullShare d) ∗ others c) ∗ (∃ r, prngReg c r)) := by
  unfold Pipeline.ΦA; rw [scopedRest0_eq]; unfold others; simp only [scM, owns_whole]; try rfl

theorem PhiM_succ (c : Dev nD) (n : ℕ) (hn : n < cfg0.N) :
    PhiM V c (n + 1) hn
      = iprop((owns (c : Thread nD τ) scM fullShare (accAt V c n hn) ∗ others c) ∗ (∃ r, prngReg c r)) := rfl

/-- Before a point that is not the first: the accumulator at what the point before left. -/
theorem PhiM_pos (c : Dev nD) (n : ℕ) (h : n ≤ cfg0.N) (hz : n ≠ 0) :
    PhiM V c n h
      = iprop((owns (c : Thread nD τ) scM fullShare (accAt V c (n - 1) (by omega)) ∗ others c) ∗ (∃ r, prngReg c r)) := by
  cases n with
  | zero => exact absurd rfl hz
  | succ n => rfl

/-- At any point the invariant gives the launch's back, the accumulator's contents forgotten. -/
theorem PhiM_forget (c : Dev nD) (n : ℕ) (h : n ≤ cfg0.N) : PhiM V c n h ⊢ Pipeline.ΦA spec0 c := by
  cases n with
  | zero => exact Idealize.SL.BI.Entails.refl _
  | succ n =>
    rw [PhiM_succ, PhiA0_eq]
    iintro ⟨⟨HS, Ho⟩, Hg⟩
    isplitl [HS Ho]
    · isplitl [HS]
      · iexists _; iexact HS
      iexact Ho
    iexact Hg

/-- At any point the invariant opens to the accumulator at some contents, the other scoped buffers, the register. -/
theorem PhiM_open (c : Dev nD) (n : ℕ) (h : n ≤ cfg0.N) :
    PhiM V c n h ⊢ iprop(((∃ d, owns (c : Thread nD τ) scM fullShare d) ∗ others c) ∗ (∃ r, prngReg c r)) := by
  rw [← PhiA0_eq]; exact PhiM_forget V c n h

/-! ## The proof data, window by window -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = accAt V c t.val t.isLt := by dsimp only [dat0]

private theorem Phi_castSucc (c : Dev nD) (t : Fin cfg0.N) :
    (dat0 V c).Φ t.castSucc = PhiM V c t.val (Nat.le_of_lt t.isLt) := by
  dsimp only [dat0]; simp only [Fin.coe_castSucc]

/-- Each input's current staging buffer holds its block at every point: fetched there it is the block; not fetched,
    the block index has not moved and the body left the block in place. -/
theorem before0_0 (c : Dev nD) (t : Fin cfg0.N) (d) : (dat0 V c).before 0 t d = iblk V c 0 t :=
  ((dat0 V c).before_in_eq_fetched 0 rfl (fun _ => rfl) (fun _ _ _ => rfl)
      (fun t => by rw [after0_0]; unfold Dat.blockOf iblk; rw [A_eq0]; try rfl) t d).trans
    (by unfold Dat.fetched Dat.blockOf iblk; rw [A_eq0]; try rfl)
theorem before0_1 (c : Dev nD) (t : Fin cfg0.N) (d) : (dat0 V c).before 1 t d = iblk V c 1 t :=
  ((dat0 V c).before_in_eq_fetched 1 rfl (fun _ => rfl) (fun _ _ _ => rfl)
      (fun t => by rw [after0_1]; unfold Dat.blockOf iblk; rw [A_eq0]; try rfl) t d).trans
    (by unfold Dat.fetched Dat.blockOf iblk; rw [A_eq0]; try rfl)

/-! ## The body at a point -/

/-- Each window's current staging memref at a point, as the pipeline passes it to the body. -/
private abbrev m0 (t : Fin cfg0.N) : Memref sig .tc .vmem S256x512 .f32 := win0_0.stage (cfg0.slots t 0)
private abbrev m1 (t : Fin cfg0.N) : Memref sig .tc .vmem S512x256 .f32 := win0_1.stage (cfg0.slots t 1)
private abbrev m2 (t : Fin cfg0.N) : Memref sig .tc .vmem S256x256 .f32 := win0_2.stage (cfg0.slots t 2)

set_option maxHeartbeats 4000000 in
/-- The body at any point. The inputs' buffers hold their blocks; the point's residue mod 4 says which conditionals
    fire. The invariant hands the body the accumulator (at what the point before left; at anything where it is
    reset) and takes it back at the recursion's value at this point; the result's buffer is written at the last
    point of a row block and handed back untouched elsewhere; the core owes nothing throughout. -/
private theorem sound_body (c : Dev nD) (t : Fin cfg0.N) :
    iprop((dat0 V c).Φ t.castSucc ∗ (dat0 V c).owesAt () t.castSucc
        ∗ (∃ d, owns (c : Thread nD τ) (m0 t) fullShare ((dat0 V c).before 0 t d))
        ∗ (∃ d, owns (c : Thread nD τ) (m1 t) fullShare ((dat0 V c).before 1 t d))
        ∗ (∃ d, owns (c : Thread nD τ) (m2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t)) := by
  unfold bodyAt0
  simp only [before0_0, before0_1]
  rw [show (dat0 V c).owesAt () t.succ = (dat0 V c).owesAt () t.castSucc from rfl]
  rw [show (dat0 V c).Φ t.succ = PhiM V c (t.val + 1) t.isLt from rfl, PhiM_succ]
  rw [show (dat0 V c).leavesExact 0 t = owns (c : Thread nD τ) (m0 t) fullShare ((dat0 V c).after 0 t) from by
    unfold Dat.leavesExact; rw [live_0 t], after0_0]
  rw [show (dat0 V c).leavesExact 1 t = owns (c : Thread nD τ) (m1 t) fullShare ((dat0 V c).after 1 t) from by
    unfold Dat.leavesExact; rw [live_1 t], after0_1]
  rw [Phi_castSucc]
  have hN : t.val < 16 := lt_of_lt_of_eq t.isLt (show cfg0.N = 16 from N_0)
  by_cases h3 : t.val % 4 = 3
  · have h0 : ¬t.val % 4 = 0 := by omega
    have hz : t.val ≠ 0 := by omega
    rw [show (dat0 V c).leavesExact 2 t = owns (c : Thread nD τ) (m2 t) fullShare ((dat0 V c).after 2 t) from by
      unfold Dat.leavesExact; rw [live_2 t ((hcondL t).mpr h3)], after0_2]
    rw [accAt_next V c t h0, PhiM_pos V c _ _ hz]
    iintro ⟨⟨⟨HS, Hr⟩, Hg⟩, Ho, ⟨%d0, H0⟩, ⟨%d1, H1⟩, ⟨%d2, H2⟩⟩
    iapply (run_last c (grid0.coords t) _ _ _ _ _ _ _ _ (fun h => h0 ((hcondZ t).mp h)) ((hcondL t).mpr h3)
      (xblk V c t) (wblk V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat0 V c) 2 t (idle_2 t (fun h => h3 ((hcondL t).mp h)))
      (noFlush_2 t (fun h => h3 ((hcondL t).mp h)))]
    by_cases h0 : t.val % 4 = 0
    · rw [accAt_first V c t h0]
      refine (sep_mono_left (PhiM_open V c _ _)).trans ?_
      iintro ⟨⟨⟨HS, Hr⟩, Hg⟩, Ho, ⟨%d0, H0⟩, ⟨%d1, H1⟩, ⟨%d2, H2⟩⟩
      iapply (run_first c (grid0.coords t) _ _ _ _ _ _ _ _ ((hcondZ t).mpr h0) (fun h => h3 ((hcondL t).mp h))
        (xblk V c t) (wblk V c t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · have hz : t.val ≠ 0 := fun h => h0 (by rw [h])
      rw [accAt_next V c t h0, PhiM_pos V c _ _ hz]
      iintro ⟨⟨⟨HS, Hr⟩, Hg⟩, Ho, ⟨%d0, H0⟩, ⟨%d1, H1⟩, ⟨%d2, H2⟩⟩
      iapply (run_mid c (grid0.coords t) _ _ _ _ _ _ _ _ (fun h => h0 ((hcondZ t).mp h)) (fun h => h3 ((hcondL t).mp h))
        (xblk V c t) (wblk V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-! ## What the pipeline rule asks of the region -/

/-- The body obligation, at every point. -/
theorem body_obligation0 (c : Dev nD) :
    BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiM V c 0 (Nat.zero_le _) from rfl]
  exact Idealize.SL.BI.Entails.refl _

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiM V c (Fin.last cfg0.N).val (Nat.le_of_lt_succ (Fin.last cfg0.N).isLt) from rfl]
  exact PhiM_forget V c _ _

end Cert.KernelIdeal.Mat

end
-- ==== Proof.RegMat.lean ====
/- The product region as an item of @main: entered from the launch contents, left with the product array at what
   its write-backs leave and every other buffer untouched. -/
import proofs.«101916_j52879637348745_1_alg».proof.Proof.RunDefs
import proofs.«101916_j52879637348745_1_alg».proof.Proof.MatBody
set_option maxRecDepth 16384

noncomputable section

namespace Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- After the region each of its arrays holds what the pipeline leaves: the two inputs their entry contents, the
    product array `mOut`. -/
theorem arr_after0 (c : Dev nD) (w : Fin cfg0.W) :
    (pdats m 0 c).arrAt w cfg0.N = (fun b => Gen.V1 m (outs m) c b : (b : Ref sig .tc) → Buf (Elt F) ((c : Thread nD τ).loc b)) (Pipeline.arrRef spec0 w) :=
  match w with
  | ⟨0, _⟩ => ((Mat.dat0 (Vin0 m) c).arrAt_in 0 rfl _).trans ((Mat.A_eq0 (Vin0 m) c 0).trans (Gen.V1_of m (outs m) c main_arg0 (by decide)).symm)
  | ⟨1, _⟩ => ((Mat.dat0 (Vin0 m) c).arrAt_in 1 rfl _).trans ((Mat.A_eq0 (Vin0 m) c 1).trans (Gen.V1_of m (outs m) c main_arg1 (by decide)).symm)
  | ⟨2, _⟩ => by
      show mOut m c = Gen.V1 m (outs m) c main_v0
      rw [V1_eq, Function.update_self]

/-- Every other buffer is as the region found it. -/
theorem rest_after0 (c : Dev nD) : ∀ b : Ref sig .tc, b ∉ Finset.univ.image (Pipeline.arrRef spec0) →
    (fun b => Gen.V1 m (outs m) c b : (b : Ref sig .tc) → Buf (Elt F) ((c : Thread nD τ).loc b)) b = Vin0 m c b :=
  fun b hb => Gen.V1_of m (outs m) c b (fun hmem =>
    hb (Finset.mem_image.mpr ⟨2, Finset.mem_univ _, (List.mem_singleton.mp hmem).symm⟩))

set_option backward.isDefEq.respectTransparency.types false in
/-- The product region over the thread state: every unscoped buffer at the launch contents going in, at the launch
    contents with the product array written coming out; the generator register into the region's invariant and
    out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mat.body_obligation0 (Vin0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun w => Mat.A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Mat.dat0 (Vin0 m) c).Φ 0 from rfl]
    refine (?_ : _ ⊢ Pipeline.ΦA spec0 c).trans (Mat.hin0 (Vin0 m) c)
    unfold Pipeline.ΦA
    iintro ⟨Hp, -, Hr⟩
    isplitl [Hr]; · iexact Hr
    iexact Hp
  hout c := by
    rw [Pipeline.ownSems0_none, show (pdats m 0 c).Φ (Fin.last _) = (Mat.dat0 (Vin0 m) c).Φ (Fin.last cfg0.N) from rfl]
    refine (Mat.hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (fun b => Gen.V1 m (outs m) c b) ((pdats m 0 c).arrAt · cfg0.N) (arr_after0 m c) (rest_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.DiscBody.lean ====
/- The all-pairs stage's body obligation. At point t = 8·i + j of the 8 × 8 grid the body, when j = 0, stores the
   zero block into the output's staging buffer; it then loads the eight feature slices of the query block and of
   the key block, loads the output buffer whole and stores back into it the step: the loaded contents plus, per
   (kernel, query column), the sum over the key columns of exp(−L1 distance). So at j = 0 the step is added to
   zero, and at j ≠ 0 to what the point before left, the buffer being written back only at j = 7. The two control
   cases are run once each on arbitrary whole staging buffers; what their stores leave reads back as the step;
   the obligation at a point is the case its coordinate j selects. -/
import proofs.«101916_j52879637348745_1_alg».proof.Proof.DiscData
import Idealize.ShloMosaic.Lib.Pipeline.Value

set_option maxRecDepth 16384

noncomputable section

namespace Cert.KernelIdeal.Disc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

/-- The arrays of the proof data are the contents the region is entered from. -/
theorem A_eq1 (c : Dev nD) (w : Fin cfg1.W) : (dat1 V c).A w = V c (Pipeline.arrRef spec1 w) := by
  dsimp only [dat1]

/-- What the body leaves in each window's staging buffer. -/
theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = outAt V c t.val t.isLt := by dsimp only [dat1]

/-! ## The reset condition over the grid -/

/-- The body's one conditional: the key coordinate j is 0. -/
abbrev zeroCond (i : grid1.Coords) : Prop :=
  (Scalar.cmpi .ne (Scalar.extui (Scalar.cmpi .eq (BitVec.ofNat 32 (i 1).val) 0#32)) 0#32) = 1#1

/-- At point t = 8·i + j it holds exactly when j = 0. -/
theorem zeroCond_iff : ∀ t : Fin cfg1.N, zeroCond (grid1.coords t) ↔ t.val % 8 = 0 :=
  (by decide +kernel : ∀ t : Fin grid1.N, zeroCond (grid1.coords t) ↔ t.val % 8 = 0)

/-! ## What the body finds in the staging buffers -/

/-- The query window is fetched only when j = 0, but its block index does not move with j: at every point its
    buffer holds the point's query block. -/
theorem found1_0 (c : Dev nD) (t : Fin cfg1.N) (d) : (dat1 V c).before 0 t d = iblk V c 0 t :=
  ((dat1 V c).before_in_eq_fetched 0 rfl (fun _ => rfl) (fun _ _ _ => rfl)
    (fun t => by rw [after1_0]; unfold Dat.blockOf iblk; rw [A_eq1]; try rfl) t d).trans
    (by unfold Dat.fetched Dat.blockOf iblk; rw [A_eq1]; try rfl)

/-- The key window is fetched at every point. -/
theorem found1_1 (c : Dev nD) (t : Fin cfg1.N) (d) : (dat1 V c).before 1 t d = iblk V c 1 t :=
  ((dat1 V c).before_in_eq_fetched 1 rfl (fun _ => rfl) (fun _ _ _ => rfl)
    (fun t => by rw [after1_1]; unfold Dat.blockOf iblk; rw [A_eq1]; try rfl) t d).trans
    (by unfold Dat.fetched Dat.blockOf iblk; rw [A_eq1]; try rfl)

/-- When j ≠ 0 the output buffer holds what the point before left: the block is written back only at j = 7, so
    not between two points of one query block. -/
theorem found1_2 (c : Dev nD) (t : Fin cfg1.N) (h0 : ¬t.val % 8 = 0) (d) :
    (dat1 V c).before 2 t d = outAt V c (t.val - 1) (Nat.lt_of_le_of_lt (Nat.sub_le _ _) t.isLt) := by
  have hN : t.val < 64 := lt_of_lt_of_eq t.isLt (show cfg1.N = 64 from N_1)
  rw [Dat.before_out_kept _ 2 rfl t (by omega)
    (Bool.eq_false_iff.mpr fun h => by have := (flush1_2 _).mp h; dsimp only at this; omega)
    (fun _ => rfl) (fun _ _ => rfl)]
  dsimp only [dat1]

/-! ## The accumulation, point by point -/

/-- At j = 0 the step starts from zero. -/
theorem outAt_reset (c : Dev nD) (t : Fin cfg1.N) (h0 : t.val % 8 = 0) :
    outAt V c t.val t.isLt = discStep (qblk V c t) (kblk V c t) (k1_pay2 (F := F)) := by
  obtain ⟨n, hn⟩ := t
  cases n with
  | zero => rfl
  | succ n =>
    show discStep _ _ (if (n + 1) % 8 = 0 then _ else _) = _
    rw [if_pos h0]

/-- At j ≠ 0 it starts from what the point before left. -/
theorem outAt_carry (c : Dev nD) (t : Fin cfg1.N) (h0 : ¬t.val % 8 = 0) :
    outAt V c t.val t.isLt = discStep (qblk V c t) (kblk V c t)
      (outAt V c (t.val - 1) (Nat.lt_of_le_of_lt (Nat.sub_le _ _) t.isLt)) := by
  obtain ⟨n, hn⟩ := t
  cases n with
  | zero => exact absurd (Nat.zero_mod _) h0
  | succ n =>
    show discStep _ _ (if (n + 1) % 8 = 0 then _ else _) = _
    rw [if_neg h0]; rfl

/-! ## The body on whole staging buffers, in its two control cases -/

set_option maxHeartbeats 1000000 in
/-- j = 0. On whole staging buffers — the inputs' at contents q and k, the output's at anything — the body runs
    to a continuation that holds the inputs as they were and the output's buffer with the pieces its two stores
    leave (last first); the pieces are the witness the run finds. -/
noncomputable def runReset (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : zeroCond i)
    (q k : Vec F S8x32x128 .f32) :
    { L : List (View.Piece (Elt F) S32x128 .f32) //
      ∀ (E : Set ℕ) (K : PUnit → sProp 𝕄),
        iprop(owns (c : Thread nD τ) arg2 fullShare q ∗ owns (c : Thread nD τ) arg3 fullShare k
            ∗ (∃ d, owns (c : Thread nD τ) arg4 fullShare d)
            ∗ (iprop(owns (c : Thread nD τ) arg2 fullShare q ∗ owns (c : Thread nD τ) arg3 fullShare k
                ∗ (∃ f, arg4.view.loc (c : Thread nD τ) ↦[arg4.view.set]{fullShare} arg4.view.writes (Elt F) f L)) -∗ K ⟨⟩))
          ⊢ wp frame (wpE (defs₀ (F := F)) Variants.none c none) E (cc1__disc_kernel i arg2 harg2 arg3 harg3 arg4 harg4) K } := by
  refine ⟨?_, fun E K => ?run⟩
  case run =>
    simp only [cc1__disc_kernel_eq_skeleton]; unfold cc1__disc_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- j ≠ 0. The same with the output's buffer at its running contents xo, which the body reads before its one
    store covers it. -/
noncomputable def runCarry (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : ¬zeroCond i)
    (q k : Vec F S8x32x128 .f32) (xo : Vec F S32x128 .f32) :
    { L : List (View.Piece (Elt F) S32x128 .f32) //
      ∀ (E : Set ℕ) (K : PUnit → sProp 𝕄),
        iprop(owns (c : Thread nD τ) arg2 fullShare q ∗ owns (c : Thread nD τ) arg3 fullShare k
            ∗ owns (c : Thread nD τ) arg4 fullShare xo
            ∗ (iprop(owns (c : Thread nD τ) arg2 fullShare q ∗ owns (c : Thread nD τ) arg3 fullShare k
                ∗ (∃ f, arg4.view.loc (c : Thread nD τ) ↦[arg4.view.set]{fullShare} arg4.view.writes (Elt F) f L)) -∗ K ⟨⟩))
          ⊢ wp frame (wpE (defs₀ (F := F)) Variants.none c none) E (cc1__disc_kernel i arg2 harg2 arg3 harg3 arg4 harg4) K } := by
  refine ⟨?_, fun E K => ?run⟩
  case run =>
    simp only [cc1__disc_kernel_eq_skeleton]; unfold cc1__disc_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What the two runs leave, named -/

private theorem zero2 : (![0, 0] : Fin 2 → Nat) = fun _ => 0 := funext fun a => by fin_cases a <;> rfl

/-- The pieces of either run cover the output block. -/
theorem cover_reset (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : zeroCond i)
    (q k : Vec F S8x32x128 .f32) (y : S32x128.Idx) :
    ∃ pc ∈ (runReset c i arg2 harg2 arg3 harg3 arg4 harg4 hc q k).1, y ∈ pc.1.set := by
  unfold runReset
  exact ⟨_, List.mem_cons_self, View.mem_set_unit_zero (S := S32x128) zero2 inb_S32x128_S32x128_0_0 y⟩

theorem cover_carry (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : ¬zeroCond i)
    (q k : Vec F S8x32x128 .f32) (xo : Vec F S32x128 .f32) (y : S32x128.Idx) :
    ∃ pc ∈ (runCarry c i arg2 harg2 arg3 harg3 arg4 harg4 hc q k xo).1, y ∈ pc.1.set := by
  unfold runCarry
  exact ⟨_, List.mem_cons_self, View.mem_set_unit_zero (S := S32x128) zero2 inb_S32x128_S32x128_0_0 y⟩

/-- j = 0: the zero block is stored and read back, so the step is added to zero. -/
theorem reads_reset (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : zeroCond i)
    (q k : Vec F S8x32x128 .f32) (f : arg4.view.ty.Contents (Elt F)) :
    arg4.view.read (Elt F) (arg4.view.writes (Elt F) f (runReset c i arg2 harg2 arg3 harg3 arg4 harg4 hc q k).1)
      = discStep q k (k1_pay2 (F := F)) := by
  rw [View.read_writes_eq_canon _ _ _ (cover_reset c i arg2 harg2 arg3 harg3 arg4 harg4 hc q k)]
  unfold runReset
  dsimp only
  sl_unfold_words
  rw [View.canon_cons_unit_zero (S := S32x128) zero2, View.readCov_unit_zero (S := S32x128) _ zero2]
  unfold discStep
  simp only [View.readAt_eq_ld, harg2.read_unread, harg3.read_unread]

/-- j ≠ 0: the step is added to what the buffer held. -/
theorem reads_carry (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : ¬zeroCond i)
    (q k : Vec F S8x32x128 .f32) (xo : Vec F S32x128 .f32) (f : arg4.view.ty.Contents (Elt F)) :
    arg4.view.read (Elt F) (arg4.view.writes (Elt F) f (runCarry c i arg2 harg2 arg3 harg3 arg4 harg4 hc q k xo).1)
      = discStep q k xo := by
  rw [View.read_writes_eq_canon _ _ _ (cover_carry c i arg2 harg2 arg3 harg3 arg4 harg4 hc q k xo)]
  unfold runCarry
  dsimp only
  sl_unfold_words
  rw [View.canon_unit_zero (S := S32x128) zero2]
  unfold discStep
  simp only [View.readAt_eq_ld, harg2.read_unread, harg3.read_unread, harg4.read_unread, View.ld_unit_zero (S := S32x128) zero2]

/-! ## The body obligation -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t))

set_option maxHeartbeats 1000000 in
/-- The body at any point: the input buffers hold the point's query and key blocks; j = 0 or not decides the
    control case, and when j ≠ 0 the output buffer holds what the point before left; the case's run applies, and
    what its pieces read back as is the point's step. The invariant passes through untouched, nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outAt_reset V c t h0]
    iintro ⟨HΦ, Ho, ⟨%d0, H0⟩, ⟨%d1, H1⟩, ⟨%d2, H2⟩⟩
    iapply ((runReset c (grid1.coords t) _ _ _ _ _ _ ((zeroCond_iff t).mpr h0) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact reads_reset c _ _ _ _ _ _ _ _ _ _ _
  · rw [outAt_carry V c t h0]
    simp only [found1_2 V c t h0]
    iintro ⟨HΦ, Ho, ⟨%d0, H0⟩, ⟨%d1, H1⟩, ⟨%d2, H2⟩⟩
    iapply ((runCarry c (grid1.coords t) _ _ _ _ _ _ (fun h => h0 ((zeroCond_iff t).mp h)) (iblk V c 0 t) (iblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact reads_carry c _ _ _ _ _ _ _ _ _ _ _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Disc

end
-- ==== Proof.RegDisc.lean ====
/- The all-pairs region of the kernel program as a segment of its run. The region is entered from every unscoped
   buffer of the core held at the valuation after the reshape and the transpose, and left at that valuation with the
   feature array at what the region's write-backs leave. Its two input windows stage one array, the transposed
   product: at the entry that array's whole buffer is split into the two halves the windows hold, at the exit the
   halves are joined again; the feature array passes whole through the output window. -/
import proofs.«101916_j52879637348745_1_alg».proof.Proof.RunDefs
import proofs.«101916_j52879637348745_1_alg».proof.Proof.DiscBody

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The two buffers behind the three windows -/

/-- The buffers behind the region's windows are its arrays: the transposed product, whole, is the two halves the
    two input windows hold; the feature array is the output window's. -/
theorem arrBufs_arrays (c : Dev nD) (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊣⊢ (pdats m 1 c).arrays G := by
  unfold Pipeline.arrBufs Pipeline.Dat.arrays
  rw [BI.bigSep_eq_bigSepL_of_eq [main_v2, main_v3] (by decide) (by decide), Gen.bigSep_W1]
  have h0 : ((cfgs 1).win 0).arr.view.set = Finset.univ := (arr_whole1 0).set_eq_univ
  have h1 : ((cfgs 1).win 1).arr.view.set = Finset.univ := (arr_whole1 1).set_eq_univ
  have h2 : ((cfgs 1).win 2).arr.view.set = Finset.univ := (arr_whole1 2).set_eq_univ
  have s0 : (pdats m 1 c).share 0 = fullShare.left := rfl
  have s1 : (pdats m 1 c).share 1 = fullShare.right := rfl
  have s2 : (pdats m 1 c).share 2 = fullShare := rfl
  rw [s0, s1, s2, hG 0, hG 1, hG 2, h0, h1, h2]
  show iprop((((c : Thread nD τ).loc main_v2) ↦{fullShare} V main_v2) ∗ (((c : Thread nD τ).loc main_v3) ↦{fullShare} V main_v3))
    ⊣⊢ iprop((((c : Thread nD τ).loc main_v2) ↦{fullShare.left} V main_v2) ∗ (((c : Thread nD τ).loc main_v2) ↦{fullShare.right} V main_v2)
        ∗ (((c : Thread nD τ).loc main_v3) ↦{fullShare} V main_v3))
  -- the full share is the composite of its two halves
  have hsh : ((((c : Thread nD τ).loc main_v2) ↦{fullShare} V main_v2) : sProp 𝕄)
      ⊣⊢ iprop((((c : Thread nD τ).loc main_v2) ↦{fullShare.left} V main_v2) ∗ (((c : Thread nD τ).loc main_v2) ↦{fullShare.right} V main_v2)) :=
    pointsTo_share (PosShare.mem_left_op_right fullShare)
  refine ⟨?_, ?_⟩
  · iintro ⟨H2, H3⟩
    ihave H := hsh.1 $$ H2
    icases H with ⟨Hl, Hr⟩
    isplitl [Hl]; · iexact Hl
    isplitl [Hr]; · iexact Hr
    iexact H3
  · iintro ⟨Hl, Hr, H3⟩
    isplitr [H3]
    · iapply hsh.2
      isplitl [Hl]; · iexact Hl
      iexact Hr
    · iexact H3

/-! ## The region's arrays out of the core's unscoped buffers, and back -/

/-- ENTRY, the arrays' part: the core's unscoped buffers at the valuation the region is entered from are the
    region's arrays at the proof data's entry contents and the unscoped rest. -/
theorem entry_split (c : Dev nD) :
    (unscopedBufs (Ix := Unit) (Name := ℕ) (U := UR sig nD τ) (Lvl := ℕ) c (fun b => W2 m c b) : sProp 𝕄)
      ⊢ iprop((pdats m 1 c).arrays ((pdats m 1 c).arrAt · 0) ∗ Pipeline.unscopedRest spec1 c (fun b => W2 m c b)) := by
  rw [Pipeline.unscopedBufs_split₀ cfgs 1 winFacts₀1.arr_unscoped c]
  exact sep_mono (arrBufs_arrays m c _ _ fun w => Disc.A_eq1 (Vin1 m) c w).1 .rfl

/-- The valuation the region leaves: the one it is entered from with the feature array at what the write-backs leave. -/
abbrev W3 (c : Dev nD) : Valuation τ sig (Elt F) := Function.update (W2 m c) main_v3 (dOut m c)

/-- Each window's array at the end of the region, read off the valuation the region leaves: the input windows' array
    is never written, the output window's is the feature array. -/
theorem arrAt_end (c : Dev nD) (w : Fin cfg1.W) : (pdats m 1 c).arrAt w cfg1.N = W3 m c (Pipeline.arrRef spec1 w) := by
  match w with
  | ⟨0, _⟩ =>
    refine ((Disc.dat1 (Vin1 m) c).arrAt_in 0 rfl _).trans ((Disc.A_eq1 (Vin1 m) c 0).trans ?_)
    exact (Function.update_of_ne (StableHlo.devRef_ne_of_ne (by decide) : (Proc.devRef .tc main_v2 : DevRef τ sig) ≠ Proc.devRef .tc main_v3) _ _).symm
  | ⟨1, _⟩ =>
    refine ((Disc.dat1 (Vin1 m) c).arrAt_in 1 rfl _).trans ((Disc.A_eq1 (Vin1 m) c 1).trans ?_)
    exact (Function.update_of_ne (StableHlo.devRef_ne_of_ne (by decide) : (Proc.devRef .tc main_v2 : DevRef τ sig) ≠ Proc.devRef .tc main_v3) _ _).symm
  | ⟨2, _⟩ =>
    show dOut m c = Function.update (W2 m c) (Proc.devRef .tc main_v3) (dOut m c) (Proc.devRef .tc main_v3)
    rw [Function.update_self]

/-- EXIT, the arrays' part: the region's arrays at their final contents and the unscoped rest are the core's unscoped
    buffers at the valuation the region leaves. -/
theorem exit_join (c : Dev nD) :
    iprop((pdats m 1 c).arrays ((pdats m 1 c).arrAt · cfg1.N) ∗ Pipeline.unscopedRest spec1 c (fun b => W2 m c b))
      ⊢ (unscopedBufs (Ix := Unit) (Name := ℕ) (U := UR sig nD τ) (Lvl := ℕ) c (fun b => W3 m c b) : sProp 𝕄) := by
  rw [Pipeline.unscopedBufs_split₀ cfgs 1 winFacts₀1.arr_unscoped c]
  refine sep_mono (arrBufs_arrays m c _ _ fun w => arrAt_end m c w).2 (Entails.of_eq ?_)
  unfold Pipeline.unscopedRest
  refine bigSep_congr fun b hb => ?_
  have hne : b ≠ main_v3 := fun e => (Finset.mem_sdiff.mp hb).2 (e ▸ Finset.mem_image.mpr ⟨2, Finset.mem_univ _, rfl⟩)
  show _ = (((c : Thread nD τ).loc b) ↦{fullShare} Function.update (W2 m c) (Proc.devRef .tc main_v3) (dOut m c) (Proc.devRef .tc b))
  rw [Function.update_of_ne (StableHlo.devRef_ne_of_ne hne : (Proc.devRef .tc b : DevRef τ sig) ≠ Proc.devRef .tc main_v3)]

/-- The same two, read at the thread state's spelling: the unscoped references held at the valuations between the items. -/
theorem held_entry (c : Dev nD) :
    (StableHlo.held (c : Thread nD τ) (Pipeline.ucRefs τ sig) (Gen.V2 m (outs m) c) : sProp 𝕄)
      ⊢ iprop((pdats m 1 c).arrays ((pdats m 1 c).arrAt · 0) ∗ Pipeline.unscopedRest spec1 c (fun b => W2 m c b)) := by
  rw [V2_eq, ← Pipeline.unscopedBufs_held]
  exact entry_split m c

theorem held_exit (c : Dev nD) :
    iprop((pdats m 1 c).arrays ((pdats m 1 c).arrAt · cfg1.N) ∗ Pipeline.unscopedRest spec1 c (fun b => W2 m c b))
      ⊢ (StableHlo.held (c : Thread nD τ) (Pipeline.ucRefs τ sig) (Gen.V3 m (outs m) c) : sProp 𝕄) := by
  rw [V3_eq, ← Pipeline.unscopedBufs_held]
  exact exit_join m c

/-! ## What else crosses the region -/

/-- The core owing nothing is what the region's loop holds of its dues before the first point: the proof data owes
    nothing anywhere and bounds the recorded pairs by everything. -/
theorem owes_first (c : Dev nD) :
    (iprop(∃ W, owes (c : Thread nD τ) (0 : CellTallies nD τ sig Unit) W) : sProp 𝕄) ⊢ (pdats m 1 c).owesAt () 0 := by
  iintro ⟨%W, HO⟩
  iexists W
  isplitr
  · ipureintro; exact fun _ _ => Or.inl trivial
  · iexact HO

/-- and after the last point the loop hands back the core owing nothing. -/
theorem owes_last (c : Dev nD) :
    (pdats m 1 c).owesAt () (Fin.last cfg1.N) ⊢ (iprop(∃ W, owes (c : Thread nD τ) (0 : CellTallies nD τ sig Unit) W) : sProp 𝕄) := by
  iintro ⟨%W, -, HO⟩
  iexists W
  iexact HO

/-- The region has no prefetched table: holding them is holding nothing. -/
theorem noTables (c : Dev nD) :
    (BI.emp : sProp 𝕄) ⊢ Pipeline.prefHeld (pcfgs (F := F) 1).pre c (fun _ => fullShare) (Gen.adm (F := F) 1).1 := by
  unfold Pipeline.prefHeld
  rw [show (Finset.univ : Finset (Fin 0)) = ∅ from rfl, BI.bigSep_empty]

/-! ## The region as a segment -/

set_option backward.isDefEq.respectTransparency.types false in
/-- The all-pairs region over the thread state "every unscoped buffer at a valuation, beside the generator register
    and the core owing nothing": entered from the valuation after the transpose, left at that valuation with the
    feature array at what the write-backs leave. The region's arrays leave the unscoped buffers at the entry and
    return at the exit; the rest of the unscoped buffers bypasses the region; the generator register goes through the
    region's invariant, which holds nothing else but the scoped buffers no window stages; the kernel has no semaphore of
    its own and owes nothing. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Disc.body_obligation1 (Vin1 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => W2 m c b)
  hentry c := by
    iintro ⟨⟨Hheld, Hreg, Howes⟩, -, -⟩
    imodintro
    ihave Hparts := held_entry m c $$ Hheld
    icases Hparts with ⟨Harr, Hrest⟩
    isplitl [Harr]; · iexact Harr
    isplitr; · iapply noTables c; iempintro
    isplitl [Howes]; · iapply owes_first m c; iexact Howes
    isplitl [Hreg]; · iexact Hreg
    iexact Hrest
  hin c := by
    show _ ⊢ Pipeline.ΦA spec1 c
    unfold Pipeline.ΦA
    iintro ⟨Hreg, -, Hscoped⟩
    isplitl [Hscoped]; · iexact Hscoped
    iexact Hreg
  hout c := by
    rw [Pipeline.ownSems0_none]
    show Pipeline.ΦA spec1 c ⊢ _
    unfold Pipeline.ΦA
    iintro ⟨Hscoped, Hreg⟩
    isplitl [Hreg]; · iexact Hreg
    isplitr; · iempintro
    iexact Hscoped
  hexit c := by
    iintro ⟨Harr, Howes, Hreg, Hrest⟩
    imodintro
    isplitl [Harr Hrest]
    · iapply held_exit m c
      isplitl [Harr]; · iexact Harr
      iexact Hrest
    isplitl [Hreg]; · iexact Hreg
    iapply owes_last m c; iexact Howes

theorem reg1_pre (c : Dev nD) :
    (reg1 m).pre c = iprop(StableHlo.held (c : Thread nD τ) (Pipeline.ucRefs τ sig) (Gen.V2 m (outs m) c) ∗ R c) := rfl

theorem reg1_post (c : Dev nD) :
    (reg1 m).post c = iprop(StableHlo.held (c : Thread nD τ) (Pipeline.ucRefs τ sig) (Gen.V3 m (outs m) c) ∗ R c) := rfl

end Cert.KernelIdeal.Run

end
-- ==== Proof.MainRun.lean ====
/- The launch: from any memory with every counter at zero, every weakly fair execution of the kernel program
   terminates without a fault, the result buffer ends at the last valuation's contents, and the two argument arrays
   end as launched. -/
import proofs.«101916_j52879637348745_1_alg».proof.Proof.RegMat
import proofs.«101916_j52879637348745_1_alg».proof.Proof.RegDisc
set_option maxRecDepth 16384

noncomputable section

namespace Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run of @main with its result named: the items in order, each entered from what the one before left. -/
theorem run_main (ρ : Dev nD → PrngReg) :
    θ_run defs (onTc (τ := τ) (main (F := F))) ⟨m, fun _ => 0, ρ⟩ (fun r => ∀ c : Dev nD,
      r.2.mem ((c.tc : Thread nD τ).loc main_v5) = Gen.V4 m (outs m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, Entails.of_eq (reg1_pre m c).symm, Entails.of_eq (reg1_post m c),
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v5) = Gen.V4 m (outs m) c main_v5
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  -- the end: each buffer read off the last valuation
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨h (Proc.devRef .tc main_v5) (mem_uc main_v5 (by decide)),
      (h (Proc.devRef .tc main_arg0) (mem_uc main_arg0 (by decide))).trans (Gen.V4_main_arg0 m (outs m) c),
      (h (Proc.devRef .tc main_arg1) (mem_uc main_arg1 (by decide))).trans (Gen.V4_main_arg1 m (outs m) c)⟩
  · iexact HSI

/-- The frame: the program runs to the end, faults nowhere, and leaves its argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Run

end
-- ==== Proof.BitsMatData.lean ====
/- The product stage's proof data. The first kernel region computes m = x · W block by block: its grid is
   4 × 4, point t = 4·i + k takes the 256 × 512 block (i, k) of x and the 512 × 256 block (k, 0) of W, adds their
   product into a 256 × 256 accumulator kept in scratch memory (reset to zero when k = 0), and when k = 3 copies
   the accumulator into row block i of the result. Stated here at a parameter V, the buffer contents the region
   is entered from: the blocks, the accumulator after each point as a recursion on the point, and the data the
   pipeline rule asks for. -/
import proofs.«101916_j52879637348745_1_alg».proof.Proof.Gen.Kernel.Launch
import proofs.«101916_j52879637348745_1_alg».proof.Proof.Gen.Kernel.Skeleton
import proofs.«101916_j52879637348745_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.Kernel.Mat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x at point t: rows 256·i …, columns 512·k …. -/
abbrev xblk (c : Dev nD) (t : Fin cfg0.N) : Vec F S256x512 .f32 := iblk V c 0 t
/-- The block of W at point t: rows 512·k …, all 256 columns. -/
abbrev wblk (c : Dev nD) (t : Fin cfg0.N) : Vec F S512x256 .f32 := iblk V c 1 t

/-- The accumulator after point n: the block product added to zero at the first point of a row block
    (n ≡ 0 mod 4), to what the point before left otherwise. -/
def accAt (c : Dev nD) : (n : ℕ) → n < cfg0.N → Vec F S256x256 .f32
  | 0, h => k0_pay2 (xblk V c ⟨0, h⟩) (wblk V c ⟨0, h⟩) (k0_pay1 (F := F))
  | n + 1, h => k0_pay2 (xblk V c ⟨n + 1, h⟩) (wblk V c ⟨n + 1, h⟩)
      (if (n + 1) % 4 = 0 then (k0_pay1 (F := F)) else accAt c n (Nat.lt_of_succ_lt h))

/-- The scratch accumulator, whole. -/
abbrev scM : Memref sig .tc .vmem S256x256 .f32 := Memref.whole cc0_scratch0

/-- The scoped buffers of the core that are neither this region's staging buffers nor its accumulator (the
    second region's staging buffers), each whole at some contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's invariant before point n: before the first point the accumulator holds anything; afterwards
    what the point before left in it. The other scoped buffers and the generator register ride along. -/
def PhiM (c : Dev nD) : (n : ℕ) → n ≤ cfg0.N → sProp 𝕄
  | 0, _ => Pipeline.ΦA spec0 c
  | n + 1, hn => iprop((owns (c : Thread nD τ) scM fullShare (accAt V c n hn) ∗ others c) ∗ (∃ r, prngReg c r))

/-- The proof data of the product stage on core c. After the body each input's buffer holds its block; the
    result's buffer holds the accumulator (consulted only where the body stores it, k = 3). -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := PhiM V c t.val (Nat.le_of_lt_succ t.isLt)
  q _ := fullShare
  owed _ := 0

end Cert.Kernel.Mat

end
-- ==== Proof.BitsDiscData.lean ====
/- The all-pairs stage's proof data. The second kernel region has an 8 × 8 grid: point t = 8·i + j takes two
   8 × 32 × 128 blocks of the transposed product mT (the "query" columns 128·i … and the "key" columns 128·j …),
   forms for every kernel index k, query column r and key column s the L1 distance over the 8 features, applies
   exp(−·), sums over the 128 key columns and adds the result into the 32 × 128 output block i, which it first
   zeroes when j = 0; the block is written back when j = 7. Both input windows stage the same array. Stated at
   a parameter V, the buffer contents the region is entered from. -/
import proofs.«101916_j52879637348745_1_alg».proof.Proof.Gen.Kernel.Launch
import proofs.«101916_j52879637348745_1_alg».proof.Proof.Gen.Kernel.Skeleton
import proofs.«101916_j52879637348745_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Tactic

set_option maxRecDepth 16384

noncomputable section

namespace Cert.Kernel.Disc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block at point t: all features and kernels, columns 128·i …. -/
abbrev qblk (c : Dev nD) (t : Fin cfg1.N) : Vec F S8x32x128 .f32 := iblk V c 0 t
/-- The key block at point t: all features and kernels, columns 128·j …. -/
abbrev kblk (c : Dev nD) (t : Fin cfg1.N) : Vec F S8x32x128 .f32 := iblk V c 1 t

/-- Feature slice d of a block, as the body loads it. -/
abbrev sl0 : Rect S8x32x128 := Rect.unit (s := S8x32x128) ![0, 0, 0] S1x32x128.size inb_S8x32x128_S1x32x128_0_0_0
abbrev sl1 : Rect S8x32x128 := Rect.unit (s := S8x32x128) ![1, 0, 0] S1x32x128.size inb_S8x32x128_S1x32x128_1_0_0
abbrev sl2 : Rect S8x32x128 := Rect.unit (s := S8x32x128) ![2, 0, 0] S1x32x128.size inb_S8x32x128_S1x32x128_2_0_0
abbrev sl3 : Rect S8x32x128 := Rect.unit (s := S8x32x128) ![3, 0, 0] S1x32x128.size inb_S8x32x128_S1x32x128_3_0_0
abbrev sl4 : Rect S8x32x128 := Rect.unit (s := S8x32x128) ![4, 0, 0] S1x32x128.size inb_S8x32x128_S1x32x128_4_0_0
abbrev sl5 : Rect S8x32x128 := Rect.unit (s := S8x32x128) ![5, 0, 0] S1x32x128.size inb_S8x32x128_S1x32x128_5_0_0
abbrev sl6 : Rect S8x32x128 := Rect.unit (s := S8x32x128) ![6, 0, 0] S1x32x128.size inb_S8x32x128_S1x32x128_6_0_0
abbrev sl7 : Rect S8x32x128 := Rect.unit (s := S8x32x128) ![7, 0, 0] S1x32x128.size inb_S8x32x128_S1x32x128_7_0_0

/-- What the body stores into the output block: the previous contents plus, per (kernel, query column), the sum
    over the key columns of exp(−L1 distance), as the body's payloads compose. -/
def discStep (q k : Vec F S8x32x128 .f32) (prev : Vec F S32x128 .f32) : Vec F S32x128 .f32 :=
  k1_pay1
    (k1_pay5 (k1_pay3 (View.ld q sl0) (View.ld k sl0) (View.ld q sl1) (View.ld k sl1)) (k1_pay4 (View.ld q sl2) (View.ld k sl2))
      (View.ld q sl3) (View.ld k sl3) (View.ld q sl4) (View.ld k sl4) (View.ld q sl5) (View.ld k sl5))
    (k1_pay6 (View.ld q sl6)) (View.ld k sl6) (View.ld q sl7) (View.ld k sl7) prev

/-- The output block's staging buffer after point n: the step added to zero at the first point of a query block
    (n ≡ 0 mod 8), to what the point before left otherwise. -/
def outAt (c : Dev nD) : (n : ℕ) → n < cfg1.N → Vec F S32x128 .f32
  | 0, h => discStep (qblk V c ⟨0, h⟩) (kblk V c ⟨0, h⟩) (k1_pay2 (F := F))
  | n + 1, h => discStep (qblk V c ⟨n + 1, h⟩) (kblk V c ⟨n + 1, h⟩)
      (if (n + 1) % 8 = 0 then (k1_pay2 (F := F)) else outAt c n (Nat.lt_of_succ_lt h))

/-- The proof data of the all-pairs stage on core c. The two input windows share the array mT, each holding
    half of it; the kernel has no scratch, so the invariant is the library's for such kernels. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t.val t.isLt
  Φ _ := Pipeline.ΦA spec1 c
  q w := match w with
    | ⟨0, _⟩ => fullShare.left
    | ⟨1, _⟩ => fullShare.right
    | ⟨2, _⟩ => fullShare
  owed _ := 0

end Cert.Kernel.Disc

end
-- ==== Proof.BitsRunDefs.lean ====
/- The run of the kernel program. @main is: the product region, two host operations (a reshape and a transpose),
   the all-pairs region, two host operations (a transpose and the concatenate). Between two items the core holds
   every unscoped buffer at a known valuation: the launch memory, then what each item writes. Each region is
   entered from the valuation before it and left at the one after it, its result array at what its write-backs
   leave; so the last valuation names the program's result, and every argument array is as launched. -/
import proofs.«101916_j52879637348745_1_alg».proof.Proof.BitsMatData
import proofs.«101916_j52879637348745_1_alg».proof.Proof.BitsDiscData
import proofs.«101916_j52879637348745_1_alg».proof.Proof.Gen.Kernel.Regions
import Idealize.ShloMosaic.Lib.Pipeline.RegionsLoop

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the regions leave, and the valuations between the items -/

/-- The launch contents, read at the TensorCore's references: what the product region is entered from. -/
abbrev Vin0 : (c : Dev nD) → (b : Ref sig .tc) → Buf (Elt F) ((c : Thread nD τ).loc b) := fun c b => Gen.V0 m c b

/-- The product array after the first region: its row blocks as the write-backs leave them. -/
def mOut (c : Dev nD) : Buf (Elt F) ((c : Thread nD τ).loc main_v0) := (Mat.dat0 (Vin0 m) c).arrAt 2 cfg0.N

/-- The valuation the second region is entered from: the launch contents with the product array at `mOut`, then the
    reshape and the transpose. -/
abbrev W2 (c : Dev nD) : Valuation τ sig (Elt F) := StableHlo.after hostOps1 (Function.update (Gen.V0 m c) main_v0 (mOut m c))
abbrev Vin1 : (c : Dev nD) → (b : Ref sig .tc) → Buf (Elt F) ((c : Thread nD τ).loc b) := fun c b => W2 m c b

/-- The feature array after the second region: its column blocks as the write-backs leave them. -/
def dOut (c : Dev nD) : Buf (Elt F) ((c : Thread nD τ).loc main_v3) := (Disc.dat1 (Vin1 m) c).arrAt 2 cfg1.N

/-- What the regions leave in the buffers they may change. -/
def outs : Gen.Outs (F := F) := fun J r c =>
  if h : r = main_v0 then h ▸ mOut m c
  else if h' : r = main_v3 then h' ▸ dOut m c
  else m ((c : Thread nD τ).loc r)

theorem outs_v0 (J : ℕ) (c : Dev nD) : outs m J main_v0 c = mOut m c := by
  unfold outs; rw [dif_pos rfl]
theorem outs_v3 (J : ℕ) (c : Dev nD) : outs m J main_v3 c = dOut m c := by
  unfold outs; rw [dif_neg (by decide), dif_pos rfl]

theorem V1_eq (c : Dev nD) : Gen.V1 m (outs m) c = Function.update (Gen.V0 m c) main_v0 (mOut m c) := by
  unfold Gen.V1; rw [outs_v0]
theorem V2_eq (c : Dev nD) : Gen.V2 m (outs m) c = W2 m c := by
  unfold Gen.V2; rw [V1_eq]
theorem V3_eq (c : Dev nD) : Gen.V3 m (outs m) c = Function.update (W2 m c) main_v3 (dOut m c) := by
  unfold Gen.V3; rw [outs_v3, V2_eq]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => Mat.dat0 (Vin0 m) c
  | ⟨1, _⟩ => fun c => Disc.dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

end Cert.Kernel.Run

end
-- ==== Proof.BitsMatBody.lean ====
/- The product stage's body. The first kernel region computes m = x · W block by block on a 4 × 4 grid, point
   t = 4·i + k. Here: the two conditionals of the body in closed form over the grid (the accumulator is reset
   where k = 0; the result's block is stored where k = 3, and its window is idle elsewhere); each input's staging
   buffer holds its block at every point; the body's triple in each of the three control cases, the accumulator
   and the result's buffer left at NAMED values (the block product added to zero, or to what the accumulator
   held); and from these the obligation the pipeline rule asks of the body at every point, against the
   accumulator's recursion on the point, together with the invariant's two ends. Generic in the float model. -/
import proofs.«101916_j52879637348745_1_alg».proof.Proof.BitsMatData
import Idealize.ShloMosaic.Lib.Pipeline.Value

set_option maxRecDepth 16384

noncomputable section

namespace Cert.Kernel.Mat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- The first conditional's condition (k = 0), the body's scalar chain substituted. -/
abbrev condZ (i : grid0.Coords) : Prop :=
  (Scalar.cmpi .ne (Scalar.extui (Scalar.cmpi .eq (BitVec.ofNat 32 (i 1).val) 0#32)) 0#32) = 1#1
/-- The second conditional's condition (k = 3). -/
abbrev condL (i : grid0.Coords) : Prop := k0_cond2 i = 1#1

theorem hcondZ : ∀ t : Fin cfg0.N, condZ (grid0.coords t) ↔ t.val % 4 = 0 :=
  (by decide +kernel : ∀ t : Fin grid0.N, condZ (grid0.coords t) ↔ t.val % 4 = 0)
theorem hcondL : ∀ t : Fin cfg0.N, condL (grid0.coords t) ↔ t.val % 4 = 3 :=
  (by decide +kernel : ∀ t : Fin grid0.N, condL (grid0.coords t) ↔ t.val % 4 = 3)

/-- The inputs are never idle. -/
private theorem live_0 : ∀ t : Fin cfg0.N, cfg0.idle 0 (grid0.coords t) = false := by decide +kernel
private theorem live_1 : ∀ t : Fin cfg0.N, cfg0.idle 1 (grid0.coords t) = false := by decide +kernel
/-- The result's window is idle, and not written back, off the last point of a row block; live on it. -/
private theorem idle_2 : ∀ t : Fin cfg0.N, ¬condL (grid0.coords t) → cfg0.idle 2 (grid0.coords t) = true := by decide +kernel
private theorem noFlush_2 : ∀ t : Fin cfg0.N, ¬condL (grid0.coords t) → (cfg0.win 2).flush t = false := by decide +kernel
private theorem live_2 : ∀ t : Fin cfg0.N, condL (grid0.coords t) → cfg0.idle 2 (grid0.coords t) = false := by decide +kernel

/-- The whole-shape rectangle's offsets are zeros. -/
private theorem hz2 : (![0, 0] : Fin 2 → ℕ) = fun _ => 0 := by funext a; fin_cases a <;> rfl

/-- A list of stores whose last is through the whole-shape rectangle covers the shape. -/
private theorem cover_last (w : S256x256.Idx → Elt F .f32) (L : List (View.Piece (Elt F) S256x256 .f32)) (y : S256x256.Idx) :
    ∃ p ∈ ((⟨Rect.unit ![0, 0] S256x256.size inb_S256x256_S256x256_0_0, w⟩ : View.Piece (Elt F) S256x256 .f32) :: L), y ∈ p.1.set :=
  ⟨_, List.mem_cons_self, View.mem_set_unit_zero hz2 inb_S256x256_S256x256_0_0 y⟩

set_option maxHeartbeats 1000000 in
/-- The body where neither conditional fires (k = 1, 2): the accumulator gains the block product; the inputs' and
    the result's buffers are as they were. -/
theorem run_mid (c : Dev nD) (i : grid0.Coords) (arg2 : Memref sig .tc .vmem S256x512 .f32) (harg2 : arg2.IsWhole)
    (arg3 : Memref sig .tc .vmem S512x256 .f32) (harg3 : arg3.IsWhole) (arg4 : Memref sig .tc .vmem S256x256 .f32) (harg4 : arg4.IsWhole)
    (arg5 : Memref sig .tc .vmem S256x256 .f32) (harg5 : arg5.IsWhole) (hc0 : ¬condZ i) (hc1 : ¬condL i)
    (x0 : Vec F S256x512 .f32) (w0 : Vec F S512x256 .f32) (o0 : Vec F S256x256 .f32) (a0 : Vec F S256x256 .f32)
    (E : Set ℕ) (K : PUnit → sProp 𝕄) :
    iprop(owns (c : Thread nD τ) arg2 fullShare x0 ∗ owns (c : Thread nD τ) arg3 fullShare w0
        ∗ owns (c : Thread nD τ) arg4 fullShare o0 ∗ owns (c : Thread nD τ) arg5 fullShare a0
        ∗ (iprop(owns (c : Thread nD τ) arg2 fullShare x0 ∗ owns (c : Thread nD τ) arg3 fullShare w0
            ∗ owns (c : Thread nD τ) arg4 fullShare o0 ∗ owns (c : Thread nD τ) arg5 fullShare (k0_pay2 x0 w0 a0)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_last _ _),
    View.canon_cons_unit_zero hz2]
  simp only [View.readAt_eq_ld, harg2.read_unread, harg3.read_unread, harg5.read_unread,
    View.ld_unit_zero (S := S256x512) hz2, View.ld_unit_zero (S := S512x256) hz2, View.ld_unit_zero (S := S256x256) hz2]

set_option maxHeartbeats 1000000 in
/-- The body at the first point of a row block (k = 0): the accumulator, whatever it held, is reset and gains the
    block product; the inputs' and the result's buffers are as they were. -/
theorem run_first (c : Dev nD) (i : grid0.Coords) (arg2 : Memref sig .tc .vmem S256x512 .f32) (harg2 : arg2.IsWhole)
    (arg3 : Memref sig .tc .vmem S512x256 .f32) (harg3 : arg3.IsWhole) (arg4 : Memref sig .tc .vmem S256x256 .f32) (harg4 : arg4.IsWhole)
    (arg5 : Memref sig .tc .vmem S256x256 .f32) (harg5 : arg5.IsWhole) (hc0 : condZ i) (hc1 : ¬condL i)
    (x0 : Vec F S256x512 .f32) (w0 : Vec F S512x256 .f32) (o0 : Vec F S256x256 .f32)
    (E : Set ℕ) (K : PUnit → sProp 𝕄) :
    iprop(owns (c : Thread nD τ) arg2 fullShare x0 ∗ owns (c : Thread nD τ) arg3 fullShare w0
        ∗ owns (c : Thread nD τ) arg4 fullShare o0 ∗ (∃ a, owns (c : Thread nD τ) arg5 fullShare a)
        ∗ (iprop(owns (c : Thread nD τ) arg2 fullShare x0 ∗ owns (c : Thread nD τ) arg3 fullShare w0
            ∗ owns (c : Thread nD τ) arg4 fullShare o0 ∗ owns (c : Thread nD τ) arg5 fullShare (k0_pay2 x0 w0 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%a, %f5, -, H5⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  iexists _; isplitr
  swap; · iexact H5
  ipureintro
  rw [View.read_writes_eq_canon _ _ _ (cover_last _ _),
    View.canon_cons_unit_zero hz2]
  sl_unfold_words
  simp only [View.readAt_eq_ld, harg2.read_unread, harg3.read_unread, View.readCov_unit_zero (S := S256x256) _ hz2,
    View.ld_unit_zero (S := S256x512) hz2, View.ld_unit_zero (S := S512x256) hz2]

set_option maxHeartbeats 1000000 in
/-- The body at the last point of a row block (k = 3): the accumulator gains the block product, and the result's
    buffer, whatever it held, is left at the accumulator's new value. -/
theorem run_last (c : Dev nD) (i : grid0.Coords) (arg2 : Memref sig .tc .vmem S256x512 .f32) (harg2 : arg2.IsWhole)
    (arg3 : Memref sig .tc .vmem S512x256 .f32) (harg3 : arg3.IsWhole) (arg4 : Memref sig .tc .vmem S256x256 .f32) (harg4 : arg4.IsWhole)
    (arg5 : Memref sig .tc .vmem S256x256 .f32) (harg5 : arg5.IsWhole) (hc0 : ¬condZ i) (hc1 : condL i)
    (x0 : Vec F S256x512 .f32) (w0 : Vec F S512x256 .f32) (a0 : Vec F S256x256 .f32)
    (E : Set ℕ) (K : PUnit → sProp 𝕄) :
    iprop(owns (c : Thread nD τ) arg2 fullShare x0 ∗ owns (c : Thread nD τ) arg3 fullShare w0
        ∗ (∃ o, owns (c : Thread nD τ) arg4 fullShare o) ∗ owns (c : Thread nD τ) arg5 fullShare a0
        ∗ (iprop(owns (c : Thread nD τ) arg2 fullShare x0 ∗ owns (c : Thread nD τ) arg3 fullShare w0
            ∗ owns (c : Thread nD τ) arg4 fullShare (k0_pay2 x0 w0 a0) ∗ owns (c : Thread nD τ) arg5 fullShare (k0_pay2 x0 w0 a0)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%o, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (cover_last _ _),
      View.canon_cons_unit_zero hz2]
    sl_unfold_words
    simp only [View.readAt_eq_ld, harg2.read_unread, harg3.read_unread, harg5.read_unread,
      View.readCov_unit_zero (S := S256x256) _ hz2,
      View.ld_unit_zero (S := S256x512) hz2, View.ld_unit_zero (S := S512x256) hz2, View.ld_unit_zero (S := S256x256) hz2]
  iexists _; isplitr
  swap; · iexact H5
  ipureintro
  sl_unfold_words
  rw [View.read_writes_eq_canon _ _ _ (cover_last _ _),
    View.canon_cons_unit_zero hz2]
  simp only [View.readAt_eq_ld, harg2.read_unread, harg3.read_unread, harg5.read_unread,
    View.ld_unit_zero (S := S256x512) hz2, View.ld_unit_zero (S := S512x256) hz2, View.ld_unit_zero (S := S256x256) hz2]

/-! ## The accumulator's recursion, read at a point -/

/-- At the first point of a row block the accumulator is the block product added to zero. -/
theorem accAt_first (c : Dev nD) (t : Fin cfg0.N) (h0 : t.val % 4 = 0) :
    accAt V c t.val t.isLt = k0_pay2 (xblk V c t) (wblk V c t) (k0_pay1 (F := F)) := by
  obtain ⟨n, hn⟩ := t
  cases n with
  | zero => rfl
  | succ n => exact congrArg (k0_pay2 (xblk V c ⟨n + 1, hn⟩) (wblk V c ⟨n + 1, hn⟩)) (if_pos h0)

/-- At any other point it is the block product added to what the point before left. -/
theorem accAt_next (c : Dev nD) (t : Fin cfg0.N) (h0 : ¬t.val % 4 = 0) :
    accAt V c t.val t.isLt = k0_pay2 (xblk V c t) (wblk V c t)
      (accAt V c (t.val - 1) (Nat.lt_of_le_of_lt (Nat.sub_le _ _) t.isLt)) := by
  obtain ⟨n, hn⟩ := t
  cases n with
  | zero => exact absurd (Nat.zero_mod 4) h0
  | succ n => exact congrArg (k0_pay2 (xblk V c ⟨n + 1, hn⟩) (wblk V c ⟨n + 1, hn⟩)) (if_neg h0)

/-! ## The invariant, read at a point -/

/-- What the launch hands the region: the accumulator at some contents, the other scoped buffers, the register. -/
theorem PhiA0_eq (c : Dev nD) :
    (Pipeline.ΦA spec0 c : sProp 𝕄)
      = iprop(((∃ d, owns (c : Thread nD τ) scM fullShare d) ∗ others c) ∗ (∃ r, prngReg c r)) := by
  unfold Pipeline.ΦA; rw [scopedRest0_eq]; unfold others; simp only [scM, owns_whole]; try rfl

theorem PhiM_succ (c : Dev nD) (n : ℕ) (hn : n < cfg0.N) :
    PhiM V c (n + 1) hn
      = iprop((owns (c : Thread nD τ) scM fullShare (accAt V c n hn) ∗ others c) ∗ (∃ r, prngReg c r)) := rfl

/-- Before a point that is not the first: the accumulator at what the point before left. -/
theorem PhiM_pos (c : Dev nD) (n : ℕ) (h : n ≤ cfg0.N) (hz : n ≠ 0) :
    PhiM V c n h
      = iprop((owns (c : Thread nD τ) scM fullShare (accAt V c (n - 1) (by omega)) ∗ others c) ∗ (∃ r, prngReg c r)) := by
  cases n with
  | zero => exact absurd rfl hz
  | succ n => rfl

/-- At any point the invariant gives the launch's back, the accumulator's contents forgotten. -/
theorem PhiM_forget (c : Dev nD) (n : ℕ) (h : n ≤ cfg0.N) : PhiM V c n h ⊢ Pipeline.ΦA spec0 c := by
  cases n with
  | zero => exact Idealize.SL.BI.Entails.refl _
  | succ n =>
    rw [PhiM_succ, PhiA0_eq]
    iintro ⟨⟨HS, Ho⟩, Hg⟩
    isplitl [HS Ho]
    · isplitl [HS]
      · iexists _; iexact HS
      iexact Ho
    iexact Hg

/-- At any point the invariant opens to the accumulator at some contents, the other scoped buffers, the register. -/
theorem PhiM_open (c : Dev nD) (n : ℕ) (h : n ≤ cfg0.N) :
    PhiM V c n h ⊢ iprop(((∃ d, owns (c : Thread nD τ) scM fullShare d) ∗ others c) ∗ (∃ r, prngReg c r)) := by
  rw [← PhiA0_eq]; exact PhiM_forget V c n h

/-! ## The proof data, window by window -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = accAt V c t.val t.isLt := by dsimp only [dat0]

private theorem Phi_castSucc (c : Dev nD) (t : Fin cfg0.N) :
    (dat0 V c).Φ t.castSucc = PhiM V c t.val (Nat.le_of_lt t.isLt) := by
  dsimp only [dat0]; simp only [Fin.coe_castSucc]

/-- Each input's current staging buffer holds its block at every point: fetched there it is the block; not fetched,
    the block index has not moved and the body left the block in place. -/
theorem before0_0 (c : Dev nD) (t : Fin cfg0.N) (d) : (dat0 V c).before 0 t d = iblk V c 0 t :=
  ((dat0 V c).before_in_eq_fetched 0 rfl (fun _ => rfl) (fun _ _ _ => rfl)
      (fun t => by rw [after0_0]; unfold Dat.blockOf iblk; rw [A_eq0]; try rfl) t d).trans
    (by unfold Dat.fetched Dat.blockOf iblk; rw [A_eq0]; try rfl)
theorem before0_1 (c : Dev nD) (t : Fin cfg0.N) (d) : (dat0 V c).before 1 t d = iblk V c 1 t :=
  ((dat0 V c).before_in_eq_fetched 1 rfl (fun _ => rfl) (fun _ _ _ => rfl)
      (fun t => by rw [after0_1]; unfold Dat.blockOf iblk; rw [A_eq0]; try rfl) t d).trans
    (by unfold Dat.fetched Dat.blockOf iblk; rw [A_eq0]; try rfl)

/-! ## The body at a point -/

/-- Each window's current staging memref at a point, as the pipeline passes it to the body. -/
private abbrev m0 (t : Fin cfg0.N) : Memref sig .tc .vmem S256x512 .f32 := win0_0.stage (cfg0.slots t 0)
private abbrev m1 (t : Fin cfg0.N) : Memref sig .tc .vmem S512x256 .f32 := win0_1.stage (cfg0.slots t 1)
private abbrev m2 (t : Fin cfg0.N) : Memref sig .tc .vmem S256x256 .f32 := win0_2.stage (cfg0.slots t 2)

set_option maxHeartbeats 4000000 in
/-- The body at any point. The inputs' buffers hold their blocks; the point's residue mod 4 says which conditionals
    fire. The invariant hands the body the accumulator (at what the point before left; at anything where it is
    reset) and takes it back at the recursion's value at this point; the result's buffer is written at the last
    point of a row block and handed back untouched elsewhere; the core owes nothing throughout. -/
private theorem sound_body (c : Dev nD) (t : Fin cfg0.N) :
    iprop((dat0 V c).Φ t.castSucc ∗ (dat0 V c).owesAt () t.castSucc
        ∗ (∃ d, owns (c : Thread nD τ) (m0 t) fullShare ((dat0 V c).before 0 t d))
        ∗ (∃ d, owns (c : Thread nD τ) (m1 t) fullShare ((dat0 V c).before 1 t d))
        ∗ (∃ d, owns (c : Thread nD τ) (m2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t ∗ (dat0 V c).leavesExact 2 t)) := by
  unfold bodyAt0
  simp only [before0_0, before0_1]
  rw [show (dat0 V c).owesAt () t.succ = (dat0 V c).owesAt () t.castSucc from rfl]
  rw [show (dat0 V c).Φ t.succ = PhiM V c (t.val + 1) t.isLt from rfl, PhiM_succ]
  rw [show (dat0 V c).leavesExact 0 t = owns (c : Thread nD τ) (m0 t) fullShare ((dat0 V c).after 0 t) from by
    unfold Dat.leavesExact; rw [live_0 t], after0_0]
  rw [show (dat0 V c).leavesExact 1 t = owns (c : Thread nD τ) (m1 t) fullShare ((dat0 V c).after 1 t) from by
    unfold Dat.leavesExact; rw [live_1 t], after0_1]
  rw [Phi_castSucc]
  have hN : t.val < 16 := lt_of_lt_of_eq t.isLt (show cfg0.N = 16 from N_0)
  by_cases h3 : t.val % 4 = 3
  · have h0 : ¬t.val % 4 = 0 := by omega
    have hz : t.val ≠ 0 := by omega
    rw [show (dat0 V c).leavesExact 2 t = owns (c : Thread nD τ) (m2 t) fullShare ((dat0 V c).after 2 t) from by
      unfold Dat.leavesExact; rw [live_2 t ((hcondL t).mpr h3)], after0_2]
    rw [accAt_next V c t h0, PhiM_pos V c _ _ hz]
    iintro ⟨⟨⟨HS, Hr⟩, Hg⟩, Ho, ⟨%d0, H0⟩, ⟨%d1, H1⟩, ⟨%d2, H2⟩⟩
    iapply (run_last c (grid0.coords t) _ _ _ _ _ _ _ _ (fun h => h0 ((hcondZ t).mp h)) ((hcondL t).mpr h3)
      (xblk V c t) (wblk V c t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · rw [Dat.leavesExact_idle (dat0 V c) 2 t (idle_2 t (fun h => h3 ((hcondL t).mp h)))
      (noFlush_2 t (fun h => h3 ((hcondL t).mp h)))]
    by_cases h0 : t.val % 4 = 0
    · rw [accAt_first V c t h0]
      refine (sep_mono_left (PhiM_open V c _ _)).trans ?_
      iintro ⟨⟨⟨HS, Hr⟩, Hg⟩, Ho, ⟨%d0, H0⟩, ⟨%d1, H1⟩, ⟨%d2, H2⟩⟩
      iapply (run_first c (grid0.coords t) _ _ _ _ _ _ _ _ ((hcondZ t).mpr h0) (fun h => h3 ((hcondL t).mp h))
        (xblk V c t) (wblk V c t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · have hz : t.val ≠ 0 := fun h => h0 (by rw [h])
      rw [accAt_next V c t h0, PhiM_pos V c _ _ hz]
      iintro ⟨⟨⟨HS, Hr⟩, Hg⟩, Ho, ⟨%d0, H0⟩, ⟨%d1, H1⟩, ⟨%d2, H2⟩⟩
      iapply (run_mid c (grid0.coords t) _ _ _ _ _ _ _ _ (fun h => h0 ((hcondZ t).mp h)) (fun h => h3 ((hcondL t).mp h))
        (xblk V c t) (wblk V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-! ## What the pipeline rule asks of the region -/

/-- The body obligation, at every point. -/
theorem body_obligation0 (c : Dev nD) :
    BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiM V c 0 (Nat.zero_le _) from rfl]
  exact Idealize.SL.BI.Entails.refl _

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiM V c (Fin.last cfg0.N).val (Nat.le_of_lt_succ (Fin.last cfg0.N).isLt) from rfl]
  exact PhiM_forget V c _ _

end Cert.Kernel.Mat

end
-- ==== Proof.BitsRegMat.lean ====
/- The product region as an item of @main: entered from the launch contents, left with the product array at what
   its write-backs leave and every other buffer untouched. -/
import proofs.«101916_j52879637348745_1_alg».proof.Proof.BitsRunDefs
import proofs.«101916_j52879637348745_1_alg».proof.Proof.BitsMatBody
set_option maxRecDepth 16384

noncomputable section

namespace Cert.Kernel.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- After the region each of its arrays holds what the pipeline leaves: the two inputs their entry contents, the
    product array `mOut`. -/
theorem arr_after0 (c : Dev nD) (w : Fin cfg0.W) :
    (pdats m 0 c).arrAt w cfg0.N = (fun b => Gen.V1 m (outs m) c b : (b : Ref sig .tc) → Buf (Elt F) ((c : Thread nD τ).loc b)) (Pipeline.arrRef spec0 w) :=
  match w with
  | ⟨0, _⟩ => ((Mat.dat0 (Vin0 m) c).arrAt_in 0 rfl _).trans ((Mat.A_eq0 (Vin0 m) c 0).trans (Gen.V1_of m (outs m) c main_arg0 (by decide)).symm)
  | ⟨1, _⟩ => ((Mat.dat0 (Vin0 m) c).arrAt_in 1 rfl _).trans ((Mat.A_eq0 (Vin0 m) c 1).trans (Gen.V1_of m (outs m) c main_arg1 (by decide)).symm)
  | ⟨2, _⟩ => by
      show mOut m c = Gen.V1 m (outs m) c main_v0
      rw [V1_eq, Function.update_self]

/-- Every other buffer is as the region found it. -/
theorem rest_after0 (c : Dev nD) : ∀ b : Ref sig .tc, b ∉ Finset.univ.image (Pipeline.arrRef spec0) →
    (fun b => Gen.V1 m (outs m) c b : (b : Ref sig .tc) → Buf (Elt F) ((c : Thread nD τ).loc b)) b = Vin0 m c b :=
  fun b hb => Gen.V1_of m (outs m) c b (fun hmem =>
    hb (Finset.mem_image.mpr ⟨2, Finset.mem_univ _, (List.mem_singleton.mp hmem).symm⟩))

set_option backward.isDefEq.respectTransparency.types false in
/-- The product region over the thread state: every unscoped buffer at the launch contents going in, at the launch
    contents with the product array written coming out; the generator register into the region's invariant and
    out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mat.body_obligation0 (Vin0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun w => Mat.A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Mat.dat0 (Vin0 m) c).Φ 0 from rfl]
    refine (?_ : _ ⊢ Pipeline.ΦA spec0 c).trans (Mat.hin0 (Vin0 m) c)
    unfold Pipeline.ΦA
    iintro ⟨Hp, -, Hr⟩
    isplitl [Hr]; · iexact Hr
    iexact Hp
  hout c := by
    rw [Pipeline.ownSems0_none, show (pdats m 0 c).Φ (Fin.last _) = (Mat.dat0 (Vin0 m) c).Φ (Fin.last cfg0.N) from rfl]
    refine (Mat.hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (fun b => Gen.V1 m (outs m) c b) ((pdats m 0 c).arrAt · cfg0.N) (arr_after0 m c) (rest_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BitsDiscBody.lean ====
/- The all-pairs stage's body obligation. At point t = 8·i + j of the 8 × 8 grid the body, when j = 0, stores the
   zero block into the output's staging buffer; it then loads the eight feature slices of the query block and of
   the key block, loads the output buffer whole and stores back into it the step: the loaded contents plus, per
   (kernel, query column), the sum over the key columns of exp(−L1 distance). So at j = 0 the step is added to
   zero, and at j ≠ 0 to what the point before left, the buffer being written back only at j = 7. The two control
   cases are run once each on arbitrary whole staging buffers; what their stores leave reads back as the step;
   the obligation at a point is the case its coordinate j selects. -/
import proofs.«101916_j52879637348745_1_alg».proof.Proof.BitsDiscData
import Idealize.ShloMosaic.Lib.Pipeline.Value

set_option maxRecDepth 16384

noncomputable section

namespace Cert.Kernel.Disc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, projected -/

/-- The arrays of the proof data are the contents the region is entered from. -/
theorem A_eq1 (c : Dev nD) (w : Fin cfg1.W) : (dat1 V c).A w = V c (Pipeline.arrRef spec1 w) := by
  dsimp only [dat1]

/-- What the body leaves in each window's staging buffer. -/
theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = outAt V c t.val t.isLt := by dsimp only [dat1]

/-! ## The reset condition over the grid -/

/-- The body's one conditional: the key coordinate j is 0. -/
abbrev zeroCond (i : grid1.Coords) : Prop :=
  (Scalar.cmpi .ne (Scalar.extui (Scalar.cmpi .eq (BitVec.ofNat 32 (i 1).val) 0#32)) 0#32) = 1#1

/-- At point t = 8·i + j it holds exactly when j = 0. -/
theorem zeroCond_iff : ∀ t : Fin cfg1.N, zeroCond (grid1.coords t) ↔ t.val % 8 = 0 :=
  (by decide +kernel : ∀ t : Fin grid1.N, zeroCond (grid1.coords t) ↔ t.val % 8 = 0)

/-! ## What the body finds in the staging buffers -/

/-- The query window is fetched only when j = 0, but its block index does not move with j: at every point its
    buffer holds the point's query block. -/
theorem found1_0 (c : Dev nD) (t : Fin cfg1.N) (d) : (dat1 V c).before 0 t d = iblk V c 0 t :=
  ((dat1 V c).before_in_eq_fetched 0 rfl (fun _ => rfl) (fun _ _ _ => rfl)
    (fun t => by rw [after1_0]; unfold Dat.blockOf iblk; rw [A_eq1]; try rfl) t d).trans
    (by unfold Dat.fetched Dat.blockOf iblk; rw [A_eq1]; try rfl)

/-- The key window is fetched at every point. -/
theorem found1_1 (c : Dev nD) (t : Fin cfg1.N) (d) : (dat1 V c).before 1 t d = iblk V c 1 t :=
  ((dat1 V c).before_in_eq_fetched 1 rfl (fun _ => rfl) (fun _ _ _ => rfl)
    (fun t => by rw [after1_1]; unfold Dat.blockOf iblk; rw [A_eq1]; try rfl) t d).trans
    (by unfold Dat.fetched Dat.blockOf iblk; rw [A_eq1]; try rfl)

/-- When j ≠ 0 the output buffer holds what the point before left: the block is written back only at j = 7, so
    not between two points of one query block. -/
theorem found1_2 (c : Dev nD) (t : Fin cfg1.N) (h0 : ¬t.val % 8 = 0) (d) :
    (dat1 V c).before 2 t d = outAt V c (t.val - 1) (Nat.lt_of_le_of_lt (Nat.sub_le _ _) t.isLt) := by
  have hN : t.val < 64 := lt_of_lt_of_eq t.isLt (show cfg1.N = 64 from N_1)
  rw [Dat.before_out_kept _ 2 rfl t (by omega)
    (Bool.eq_false_iff.mpr fun h => by have := (flush1_2 _).mp h; dsimp only at this; omega)
    (fun _ => rfl) (fun _ _ => rfl)]
  dsimp only [dat1]

/-! ## The accumulation, point by point -/

/-- At j = 0 the step starts from zero. -/
theorem outAt_reset (c : Dev nD) (t : Fin cfg1.N) (h0 : t.val % 8 = 0) :
    outAt V c t.val t.isLt = discStep (qblk V c t) (kblk V c t) (k1_pay2 (F := F)) := by
  obtain ⟨n, hn⟩ := t
  cases n with
  | zero => rfl
  | succ n =>
    show discStep _ _ (if (n + 1) % 8 = 0 then _ else _) = _
    rw [if_pos h0]

/-- At j ≠ 0 it starts from what the point before left. -/
theorem outAt_carry (c : Dev nD) (t : Fin cfg1.N) (h0 : ¬t.val % 8 = 0) :
    outAt V c t.val t.isLt = discStep (qblk V c t) (kblk V c t)
      (outAt V c (t.val - 1) (Nat.lt_of_le_of_lt (Nat.sub_le _ _) t.isLt)) := by
  obtain ⟨n, hn⟩ := t
  cases n with
  | zero => exact absurd (Nat.zero_mod _) h0
  | succ n =>
    show discStep _ _ (if (n + 1) % 8 = 0 then _ else _) = _
    rw [if_neg h0]; rfl

/-! ## The body on whole staging buffers, in its two control cases -/

set_option maxHeartbeats 1000000 in
/-- j = 0. On whole staging buffers — the inputs' at contents q and k, the output's at anything — the body runs
    to a continuation that holds the inputs as they were and the output's buffer with the pieces its two stores
    leave (last first); the pieces are the witness the run finds. -/
noncomputable def runReset (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : zeroCond i)
    (q k : Vec F S8x32x128 .f32) :
    { L : List (View.Piece (Elt F) S32x128 .f32) //
      ∀ (E : Set ℕ) (K : PUnit → sProp 𝕄),
        iprop(owns (c : Thread nD τ) arg2 fullShare q ∗ owns (c : Thread nD τ) arg3 fullShare k
            ∗ (∃ d, owns (c : Thread nD τ) arg4 fullShare d)
            ∗ (iprop(owns (c : Thread nD τ) arg2 fullShare q ∗ owns (c : Thread nD τ) arg3 fullShare k
                ∗ (∃ f, arg4.view.loc (c : Thread nD τ) ↦[arg4.view.set]{fullShare} arg4.view.writes (Elt F) f L)) -∗ K ⟨⟩))
          ⊢ wp frame (wpE (defs₀ (F := F)) Variants.none c none) E (cc1__disc_kernel i arg2 harg2 arg3 harg3 arg4 harg4) K } := by
  refine ⟨?_, fun E K => ?run⟩
  case run =>
    simp only [cc1__disc_kernel_eq_skeleton]; unfold cc1__disc_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- j ≠ 0. The same with the output's buffer at its running contents xo, which the body reads before its one
    store covers it. -/
noncomputable def runCarry (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : ¬zeroCond i)
    (q k : Vec F S8x32x128 .f32) (xo : Vec F S32x128 .f32) :
    { L : List (View.Piece (Elt F) S32x128 .f32) //
      ∀ (E : Set ℕ) (K : PUnit → sProp 𝕄),
        iprop(owns (c : Thread nD τ) arg2 fullShare q ∗ owns (c : Thread nD τ) arg3 fullShare k
            ∗ owns (c : Thread nD τ) arg4 fullShare xo
            ∗ (iprop(owns (c : Thread nD τ) arg2 fullShare q ∗ owns (c : Thread nD τ) arg3 fullShare k
                ∗ (∃ f, arg4.view.loc (c : Thread nD τ) ↦[arg4.view.set]{fullShare} arg4.view.writes (Elt F) f L)) -∗ K ⟨⟩))
          ⊢ wp frame (wpE (defs₀ (F := F)) Variants.none c none) E (cc1__disc_kernel i arg2 harg2 arg3 harg3 arg4 harg4) K } := by
  refine ⟨?_, fun E K => ?run⟩
  case run =>
    simp only [cc1__disc_kernel_eq_skeleton]; unfold cc1__disc_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What the two runs leave, named -/

private theorem zero2 : (![0, 0] : Fin 2 → Nat) = fun _ => 0 := funext fun a => by fin_cases a <;> rfl

/-- The pieces of either run cover the output block. -/
theorem cover_reset (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : zeroCond i)
    (q k : Vec F S8x32x128 .f32) (y : S32x128.Idx) :
    ∃ pc ∈ (runReset c i arg2 harg2 arg3 harg3 arg4 harg4 hc q k).1, y ∈ pc.1.set := by
  unfold runReset
  exact ⟨_, List.mem_cons_self, View.mem_set_unit_zero (S := S32x128) zero2 inb_S32x128_S32x128_0_0 y⟩

theorem cover_carry (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : ¬zeroCond i)
    (q k : Vec F S8x32x128 .f32) (xo : Vec F S32x128 .f32) (y : S32x128.Idx) :
    ∃ pc ∈ (runCarry c i arg2 harg2 arg3 harg3 arg4 harg4 hc q k xo).1, y ∈ pc.1.set := by
  unfold runCarry
  exact ⟨_, List.mem_cons_self, View.mem_set_unit_zero (S := S32x128) zero2 inb_S32x128_S32x128_0_0 y⟩

/-- j = 0: the zero block is stored and read back, so the step is added to zero. -/
theorem reads_reset (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : zeroCond i)
    (q k : Vec F S8x32x128 .f32) (f : arg4.view.ty.Contents (Elt F)) :
    arg4.view.read (Elt F) (arg4.view.writes (Elt F) f (runReset c i arg2 harg2 arg3 harg3 arg4 harg4 hc q k).1)
      = discStep q k (k1_pay2 (F := F)) := by
  rw [View.read_writes_eq_canon _ _ _ (cover_reset c i arg2 harg2 arg3 harg3 arg4 harg4 hc q k)]
  unfold runReset
  dsimp only
  sl_unfold_words
  rw [View.canon_cons_unit_zero (S := S32x128) zero2, View.readCov_unit_zero (S := S32x128) _ zero2]
  unfold discStep
  simp only [View.readAt_eq_ld, harg2.read_unread, harg3.read_unread]

/-- j ≠ 0: the step is added to what the buffer held. -/
theorem reads_carry (c : Dev nD) (i : grid1.Coords)
    (arg2 : Memref sig .tc .vmem S8x32x128 .f32) (harg2 : arg2.IsWhole)
    (arg3 : Memref sig .tc .vmem S8x32x128 .f32) (harg3 : arg3.IsWhole)
    (arg4 : Memref sig .tc .vmem S32x128 .f32) (harg4 : arg4.IsWhole) (hc : ¬zeroCond i)
    (q k : Vec F S8x32x128 .f32) (xo : Vec F S32x128 .f32) (f : arg4.view.ty.Contents (Elt F)) :
    arg4.view.read (Elt F) (arg4.view.writes (Elt F) f (runCarry c i arg2 harg2 arg3 harg3 arg4 harg4 hc q k xo).1)
      = discStep q k xo := by
  rw [View.read_writes_eq_canon _ _ _ (cover_carry c i arg2 harg2 arg3 harg3 arg4 harg4 hc q k xo)]
  unfold runCarry
  dsimp only
  sl_unfold_words
  rw [View.canon_unit_zero (S := S32x128) zero2]
  unfold discStep
  simp only [View.readAt_eq_ld, harg2.read_unread, harg3.read_unread, harg4.read_unread, View.ld_unit_zero (S := S32x128) zero2]

/-! ## The body obligation -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t))

set_option maxHeartbeats 1000000 in
/-- The body at any point: the input buffers hold the point's query and key blocks; j = 0 or not decides the
    control case, and when j ≠ 0 the output buffer holds what the point before left; the case's run applies, and
    what its pieces read back as is the point's step. The invariant passes through untouched, nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outAt_reset V c t h0]
    iintro ⟨HΦ, Ho, ⟨%d0, H0⟩, ⟨%d1, H1⟩, ⟨%d2, H2⟩⟩
    iapply ((runReset c (grid1.coords t) _ _ _ _ _ _ ((zeroCond_iff t).mpr h0) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact reads_reset c _ _ _ _ _ _ _ _ _ _ _
  · rw [outAt_carry V c t h0]
    simp only [found1_2 V c t h0]
    iintro ⟨HΦ, Ho, ⟨%d0, H0⟩, ⟨%d1, H1⟩, ⟨%d2, H2⟩⟩
    iapply ((runCarry c (grid1.coords t) _ _ _ _ _ _ (fun h => h0 ((zeroCond_iff t).mp h)) (iblk V c 0 t) (iblk V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact reads_carry c _ _ _ _ _ _ _ _ _ _ _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Disc

end
-- ==== Proof.BitsRegDisc.lean ====
/- The all-pairs region of the kernel program as a segment of its run. The region is entered from every unscoped
   buffer of the core held at the valuation after the reshape and the transpose, and left at that valuation with the
   feature array at what the region's write-backs leave. Its two input windows stage one array, the transposed
   product: at the entry that array's whole buffer is split into the two halves the windows hold, at the exit the
   halves are joined again; the feature array passes whole through the output window. -/
import proofs.«101916_j52879637348745_1_alg».proof.Proof.BitsRunDefs
import proofs.«101916_j52879637348745_1_alg».proof.Proof.BitsDiscBody

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The two buffers behind the three windows -/

/-- The buffers behind the region's windows are its arrays: the transposed product, whole, is the two halves the
    two input windows hold; the feature array is the output window's. -/
theorem arrBufs_arrays (c : Dev nD) (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊣⊢ (pdats m 1 c).arrays G := by
  unfold Pipeline.arrBufs Pipeline.Dat.arrays
  rw [BI.bigSep_eq_bigSepL_of_eq [main_v2, main_v3] (by decide) (by decide), Gen.bigSep_W1]
  have h0 : ((cfgs 1).win 0).arr.view.set = Finset.univ := (arr_whole1 0).set_eq_univ
  have h1 : ((cfgs 1).win 1).arr.view.set = Finset.univ := (arr_whole1 1).set_eq_univ
  have h2 : ((cfgs 1).win 2).arr.view.set = Finset.univ := (arr_whole1 2).set_eq_univ
  have s0 : (pdats m 1 c).share 0 = fullShare.left := rfl
  have s1 : (pdats m 1 c).share 1 = fullShare.right := rfl
  have s2 : (pdats m 1 c).share 2 = fullShare := rfl
  rw [s0, s1, s2, hG 0, hG 1, hG 2, h0, h1, h2]
  show iprop((((c : Thread nD τ).loc main_v2) ↦{fullShare} V main_v2) ∗ (((c : Thread nD τ).loc main_v3) ↦{fullShare} V main_v3))
    ⊣⊢ iprop((((c : Thread nD τ).loc main_v2) ↦{fullShare.left} V main_v2) ∗ (((c : Thread nD τ).loc main_v2) ↦{fullShare.right} V main_v2)
        ∗ (((c : Thread nD τ).loc main_v3) ↦{fullShare} V main_v3))
  -- the full share is the composite of its two halves
  have hsh : ((((c : Thread nD τ).loc main_v2) ↦{fullShare} V main_v2) : sProp 𝕄)
      ⊣⊢ iprop((((c : Thread nD τ).loc main_v2) ↦{fullShare.left} V main_v2) ∗ (((c : Thread nD τ).loc main_v2) ↦{fullShare.right} V main_v2)) :=
    pointsTo_share (PosShare.mem_left_op_right fullShare)
  refine ⟨?_, ?_⟩
  · iintro ⟨H2, H3⟩
    ihave H := hsh.1 $$ H2
    icases H with ⟨Hl, Hr⟩
    isplitl [Hl]; · iexact Hl
    isplitl [Hr]; · iexact Hr
    iexact H3
  · iintro ⟨Hl, Hr, H3⟩
    isplitr [H3]
    · iapply hsh.2
      isplitl [Hl]; · iexact Hl
      iexact Hr
    · iexact H3

/-! ## The region's arrays out of the core's unscoped buffers, and back -/

/-- ENTRY, the arrays' part: the core's unscoped buffers at the valuation the region is entered from are the
    region's arrays at the proof data's entry contents and the unscoped rest. -/
theorem entry_split (c : Dev nD) :
    (unscopedBufs (Ix := Unit) (Name := ℕ) (U := UR sig nD τ) (Lvl := ℕ) c (fun b => W2 m c b) : sProp 𝕄)
      ⊢ iprop((pdats m 1 c).arrays ((pdats m 1 c).arrAt · 0) ∗ Pipeline.unscopedRest spec1 c (fun b => W2 m c b)) := by
  rw [Pipeline.unscopedBufs_split₀ cfgs 1 winFacts₀1.arr_unscoped c]
  exact sep_mono (arrBufs_arrays m c _ _ fun w => Disc.A_eq1 (Vin1 m) c w).1 .rfl

/-- The valuation the region leaves: the one it is entered from with the feature array at what the write-backs leave. -/
abbrev W3 (c : Dev nD) : Valuation τ sig (Elt F) := Function.update (W2 m c) main_v3 (dOut m c)

/-- Each window's array at the end of the region, read off the valuation the region leaves: the input windows' array
    is never written, the output window's is the feature array. -/
theorem arrAt_end (c : Dev nD) (w : Fin cfg1.W) : (pdats m 1 c).arrAt w cfg1.N = W3 m c (Pipeline.arrRef spec1 w) := by
  match w with
  | ⟨0, _⟩ =>
    refine ((Disc.dat1 (Vin1 m) c).arrAt_in 0 rfl _).trans ((Disc.A_eq1 (Vin1 m) c 0).trans ?_)
    exact (Function.update_of_ne (StableHlo.devRef_ne_of_ne (by decide) : (Proc.devRef .tc main_v2 : DevRef τ sig) ≠ Proc.devRef .tc main_v3) _ _).symm
  | ⟨1, _⟩ =>
    refine ((Disc.dat1 (Vin1 m) c).arrAt_in 1 rfl _).trans ((Disc.A_eq1 (Vin1 m) c 1).trans ?_)
    exact (Function.update_of_ne (StableHlo.devRef_ne_of_ne (by decide) : (Proc.devRef .tc main_v2 : DevRef τ sig) ≠ Proc.devRef .tc main_v3) _ _).symm
  | ⟨2, _⟩ =>
    show dOut m c = Function.update (W2 m c) (Proc.devRef .tc main_v3) (dOut m c) (Proc.devRef .tc main_v3)
    rw [Function.update_self]

/-- EXIT, the arrays' part: the region's arrays at their final contents and the unscoped rest are the core's unscoped
    buffers at the valuation the region leaves. -/
theorem exit_join (c : Dev nD) :
    iprop((pdats m 1 c).arrays ((pdats m 1 c).arrAt · cfg1.N) ∗ Pipeline.unscopedRest spec1 c (fun b => W2 m c b))
      ⊢ (unscopedBufs (Ix := Unit) (Name := ℕ) (U := UR sig nD τ) (Lvl := ℕ) c (fun b => W3 m c b) : sProp 𝕄) := by
  rw [Pipeline.unscopedBufs_split₀ cfgs 1 winFacts₀1.arr_unscoped c]
  refine sep_mono (arrBufs_arrays m c _ _ fun w => arrAt_end m c w).2 (Entails.of_eq ?_)
  unfold Pipeline.unscopedRest
  refine bigSep_congr fun b hb => ?_
  have hne : b ≠ main_v3 := fun e => (Finset.mem_sdiff.mp hb).2 (e ▸ Finset.mem_image.mpr ⟨2, Finset.mem_univ _, rfl⟩)
  show _ = (((c : Thread nD τ).loc b) ↦{fullShare} Function.update (W2 m c) (Proc.devRef .tc main_v3) (dOut m c) (Proc.devRef .tc b))
  rw [Function.update_of_ne (StableHlo.devRef_ne_of_ne hne : (Proc.devRef .tc b : DevRef τ sig) ≠ Proc.devRef .tc main_v3)]

/-- The same two, read at the thread state's spelling: the unscoped references held at the valuations between the items. -/
theorem held_entry (c : Dev nD) :
    (StableHlo.held (c : Thread nD τ) (Pipeline.ucRefs τ sig) (Gen.V2 m (outs m) c) : sProp 𝕄)
      ⊢ iprop((pdats m 1 c).arrays ((pdats m 1 c).arrAt · 0) ∗ Pipeline.unscopedRest spec1 c (fun b => W2 m c b)) := by
  rw [V2_eq, ← Pipeline.unscopedBufs_held]
  exact entry_split m c

theorem held_exit (c : Dev nD) :
    iprop((pdats m 1 c).arrays ((pdats m 1 c).arrAt · cfg1.N) ∗ Pipeline.unscopedRest spec1 c (fun b => W2 m c b))
      ⊢ (StableHlo.held (c : Thread nD τ) (Pipeline.ucRefs τ sig) (Gen.V3 m (outs m) c) : sProp 𝕄) := by
  rw [V3_eq, ← Pipeline.unscopedBufs_held]
  exact exit_join m c

/-! ## What else crosses the region -/

/-- The core owing nothing is what the region's loop holds of its dues before the first point: the proof data owes
    nothing anywhere and bounds the recorded pairs by everything. -/
theorem owes_first (c : Dev nD) :
    (iprop(∃ W, owes (c : Thread nD τ) (0 : CellTallies nD τ sig Unit) W) : sProp 𝕄) ⊢ (pdats m 1 c).owesAt () 0 := by
  iintro ⟨%W, HO⟩
  iexists W
  isplitr
  · ipureintro; exact fun _ _ => Or.inl trivial
  · iexact HO

/-- and after the last point the loop hands back the core owing nothing. -/
theorem owes_last (c : Dev nD) :
    (pdats m 1 c).owesAt () (Fin.last cfg1.N) ⊢ (iprop(∃ W, owes (c : Thread nD τ) (0 : CellTallies nD τ sig Unit) W) : sProp 𝕄) := by
  iintro ⟨%W, -, HO⟩
  iexists W
  iexact HO

/-- The region has no prefetched table: holding them is holding nothing. -/
theorem noTables (c : Dev nD) :
    (BI.emp : sProp 𝕄) ⊢ Pipeline.prefHeld (pcfgs (F := F) 1).pre c (fun _ => fullShare) (Gen.adm (F := F) 1).1 := by
  unfold Pipeline.prefHeld
  rw [show (Finset.univ : Finset (Fin 0)) = ∅ from rfl, BI.bigSep_empty]

/-! ## The region as a segment -/

set_option backward.isDefEq.respectTransparency.types false in
/-- The all-pairs region over the thread state "every unscoped buffer at a valuation, beside the generator register
    and the core owing nothing": entered from the valuation after the transpose, left at that valuation with the
    feature array at what the write-backs leave. The region's arrays leave the unscoped buffers at the entry and
    return at the exit; the rest of the unscoped buffers bypasses the region; the generator register goes through the
    region's invariant, which holds nothing else but the scoped buffers no window stages; the kernel has no semaphore of
    its own and owes nothing. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Disc.body_obligation1 (Vin1 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => W2 m c b)
  hentry c := by
    iintro ⟨⟨Hheld, Hreg, Howes⟩, -, -⟩
    imodintro
    ihave Hparts := held_entry m c $$ Hheld
    icases Hparts with ⟨Harr, Hrest⟩
    isplitl [Harr]; · iexact Harr
    isplitr; · iapply noTables c; iempintro
    isplitl [Howes]; · iapply owes_first m c; iexact Howes
    isplitl [Hreg]; · iexact Hreg
    iexact Hrest
  hin c := by
    show _ ⊢ Pipeline.ΦA spec1 c
    unfold Pipeline.ΦA
    iintro ⟨Hreg, -, Hscoped⟩
    isplitl [Hscoped]; · iexact Hscoped
    iexact Hreg
  hout c := by
    rw [Pipeline.ownSems0_none]
    show Pipeline.ΦA spec1 c ⊢ _
    unfold Pipeline.ΦA
    iintro ⟨Hscoped, Hreg⟩
    isplitl [Hreg]; · iexact Hreg
    isplitr; · iempintro
    iexact Hscoped
  hexit c := by
    iintro ⟨Harr, Howes, Hreg, Hrest⟩
    imodintro
    isplitl [Harr Hrest]
    · iapply held_exit m c
      isplitl [Harr]; · iexact Harr
      iexact Hrest
    isplitl [Hreg]; · iexact Hreg
    iapply owes_last m c; iexact Howes

theorem reg1_pre (c : Dev nD) :
    (reg1 m).pre c = iprop(StableHlo.held (c : Thread nD τ) (Pipeline.ucRefs τ sig) (Gen.V2 m (outs m) c) ∗ R c) := rfl

theorem reg1_post (c : Dev nD) :
    (reg1 m).post c = iprop(StableHlo.held (c : Thread nD τ) (Pipeline.ucRefs τ sig) (Gen.V3 m (outs m) c) ∗ R c) := rfl

end Cert.Kernel.Run

end
-- ==== Proof.BitsMainRun.lean ====
/- The launch: from any memory with every counter at zero, every weakly fair execution of the kernel program
   terminates without a fault, the result buffer ends at the last valuation's contents, and the two argument arrays
   end as launched. -/
import proofs.«101916_j52879637348745_1_alg».proof.Proof.BitsRegMat
import proofs.«101916_j52879637348745_1_alg».proof.Proof.BitsRegDisc
set_option maxRecDepth 16384

noncomputable section

namespace Cert.Kernel.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run of @main with its result named: the items in order, each entered from what the one before left. -/
theorem run_main (ρ : Dev nD → PrngReg) :
    θ_run defs (onTc (τ := τ) (main (F := F))) ⟨m, fun _ => 0, ρ⟩ (fun r => ∀ c : Dev nD,
      r.2.mem ((c.tc : Thread nD τ).loc main_v5) = Gen.V4 m (outs m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, Entails.of_eq (reg1_pre m c).symm, Entails.of_eq (reg1_post m c),
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v5) = Gen.V4 m (outs m) c main_v5
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  -- the end: each buffer read off the last valuation
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨h (Proc.devRef .tc main_v5) (mem_uc main_v5 (by decide)),
      (h (Proc.devRef .tc main_arg0) (mem_uc main_arg0 (by decide))).trans (Gen.V4_main_arg0 m (outs m) c),
      (h (Proc.devRef .tc main_arg1) (mem_uc main_arg1 (by decide))).trans (Gen.V4_main_arg1 m (outs m) c)⟩
  · iexact HSI

/-- The frame: the program runs to the end, faults nowhere, and leaves its argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Run

end
-- ==== Proof.Spec.lean ====
/- The specification both programs are compared with: minibatch discrimination as one function of the two
   argument arrays x : 1024 × 2048 and W : 2048 × 256 over the extended reals, index by index. The product
   m = x · W is read as 32 kernels of 8 features (column 8·k + d); for every row b and kernel k the feature is the
   sum over all rows b' of exp(−Σ_d |m[b, 8k+d] − m[b', 8k+d]|); the result is x with those 32 features appended
   to each row. -/
import Idealize.ShloMosaic.PureOps.Ideal
import Idealize.ShloMosaic.Lib.ValueIdx

noncomputable section

namespace Cert.Spec

open Idealize.ShloMosaic Idealize.ShloMosaic.ValueIdx

/-- The shapes of x, W, the product and the result. -/
abbrev SX : Shape := ⟨2, ![1024, 2048]⟩
abbrev SW : Shape := ⟨2, ![2048, 256]⟩
abbrev SM : Shape := ⟨2, ![1024, 256]⟩
abbrev SO : Shape := ⟨2, ![1024, 2080]⟩

variable (x : SX.Idx → EReal) (w : SW.Idx → EReal)

/-- The product m[b, j] = Σ_l x[b, l] · W[l, j]. -/
def prod (b : Fin 1024) (j : Fin 256) : EReal := ∑ l : Fin 2048, x (ix2 b l) * w (ix2 l j)

/-- Feature d of kernel k is column 8·k + d of the product. -/
def col (k : Fin 32) (d : Fin 8) : Fin 256 := ⟨8 * k.val + d.val, by omega⟩

/-- |z| on the extended reals, as the programs' absolute value reads there. -/
def abs (z : EReal) : EReal := max z (-z)

/-- The L1 distance between rows b and b' over the 8 features of kernel k. -/
def dist (k : Fin 32) (b b' : Fin 1024) : EReal :=
  ∑ d : Fin 8, abs (prod x w b (col k d) - prod x w b' (col k d))

/-- The minibatch feature of row b and kernel k: Σ_{b'} exp(−dist). -/
def feat (b : Fin 1024) (k : Fin 32) : EReal := ∑ b' : Fin 1024, Ideal.exp (-(dist x w k b b'))

/-- The result: columns below 2048 are x's, column 2048 + k is feature k. -/
def G : SO.Idx → EReal := fun i =>
  if h : (i 1).val < 2048 then x (ix2 (⟨(i 0).val, idx2_lt0 i⟩ : Fin 1024) (⟨(i 1).val, h⟩ : Fin 2048))
  else feat x w ⟨(i 0).val, idx2_lt0 i⟩ ⟨(i 1).val - 2048, by have := idx2_lt1 i; omega⟩

end Cert.Spec

end
-- ==== Proof.MatValue.lean ====
/- The product stage, read as values over the extended reals. The first kernel region leaves in the product array,
   at row b and column j, the sum over all 2048 contraction positions l of x[b, l] · W[l, j]: the accumulator of
   row block i after its k-th point holds the partial sums over the first k + 1 column blocks of x, the block
   written back at the row block's last point holds all four, and the four blocks of 512 positions are the 2048. -/
import proofs.«101916_j52879637348745_1_alg».proof.Proof.RunDefs
import proofs.«101916_j52879637348745_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.MatValue

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

/-! ## The body's two payloads at an index -/

/-- The left operand of the block product is read at (row of the result, contraction position) … -/
theorem lhs_0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem lhs_1 (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q
/-- … and the right operand at (contraction position, column of the result). -/
theorem rhs_0 (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q
theorem rhs_1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- The block product into the zero splat, at (r, j): Σ_l x0[r, l] · w0[l, j] over the block's 512 contraction positions. -/
theorem blockProd_apply (x0 : Vec Ideal S256x512 .f32) (w0 : Vec Ideal S512x256 .f32) (r : Fin 256) (j : Fin 256) :
    (matmul dot_S256x512_S512x256_S256x256_1_0_0_1_n_n none (truncf .bf16 x0 bitsLt_bf16_f32) (truncf .bf16 w0 bitsLt_bf16_f32)
      (constant S256x256 .f32 0x00000000#32) : FVec Ideal S256x256 .f32) (ix2 r j)
      = ∑ l : Fin 512, x0 (ix2 r l) * w0 (ix2 l j) := by
  simp only [matmul]
  rw [Ideal.matmul_constant_zero_apply, ← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx (ix2 r j) ((contrEquiv1 dot_S256x512_S512x256_S256x256_1_0_0_1_n_n 512 rfl rfl).symm k) = ix2 r k := funext fun a => Fin.ext (by
    match a with
    | ⟨0, _⟩ => exact lhs_0 _ _
    | ⟨1, _⟩ => exact (lhs_1 _ _).trans hk)
  have er : dot_S256x512_S512x256_S256x256_1_0_0_1_n_n.rhsIdx (ix2 r j) ((contrEquiv1 dot_S256x512_S512x256_S256x256_1_0_0_1_n_n 512 rfl rfl).symm k) = ix2 k j := funext fun a => Fin.ext (by
    match a with
    | ⟨0, _⟩ => exact (rhs_0 _ _).trans hk
    | ⟨1, _⟩ => exact rhs_1 _ _)
  rw [el, er]
  rfl

/-- The accumulating payload at (r, j): what the accumulator held there plus the block product. -/
theorem pay2_apply (x0 : Vec Ideal S256x512 .f32) (w0 : Vec Ideal S512x256 .f32) (a : Vec Ideal S256x256 .f32)
    (r : Fin 256) (j : Fin 256) :
    (k0_pay2 x0 w0 a : FVec Ideal S256x256 .f32) (ix2 r j) = a (ix2 r j) + ∑ l : Fin 512, x0 (ix2 r l) * w0 (ix2 l j) := by
  unfold k0_pay2
  refine (congrFun (shapeCast_self _ shapeCasts_S256x256_S256x256) (ix2 r j)).trans ?_
  refine (addf_apply _ _ (ix2 r j)).trans ?_
  exact congrArg (a (ix2 r j) + ·) (blockProd_apply x0 w0 r j)

/-- The resetting payload is zero everywhere. -/
theorem pay1_apply (r : Fin 256) (j : Fin 256) : (k0_pay1 (F := Ideal) : FVec Ideal S256x256 .f32) (ix2 r j) = 0 := by
  unfold k0_pay1
  refine (congrFun (shapeCast_self _ shapeCasts_S256x256_S256x256) (ix2 r j)).trans ?_
  exact Ideal.ofBits_zero_f32

/-! ## The blocks the body reads, as entries of the argument arrays -/

variable (m : (ℓ : Loc nD τ sig) → Buf (Elt Ideal) ℓ)

/-- The printed index maps over the grid: at point t = 4·i + k the block of x is (i, k), the block of W is (k, 0), the
    block of the product is (i, 0). -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- The two argument arrays as launched. -/
abbrev xarr (c : Dev nD) : Vec Ideal S1024x2048 .f32 := m ((c : Thread nD τ).loc main_arg0)
abbrev warr (c : Dev nD) : Vec Ideal S2048x256 .f32 := m ((c : Thread nD τ).loc main_arg1)

/-- The block of x at point t, entry (r, l), is x[256·(t / 4) + r, 512·(t % 4) + l]. -/
theorem xblk_apply (c : Dev nD) (t : Fin cfg0.N) (r : Fin 256) (l : Fin 512) (b : Fin 1024) (p : Fin 2048)
    (hb : b.val = 256 * (t.val / 4) + r.val) (hp : p.val = 512 * (t.val % 4) + l.val) :
    (Mat.xblk (Run.Vin0 m) c t : Vec Ideal S256x512 .f32) (ix2 r l) = xarr m c (ix2 b p) := by
  obtain ⟨e0, e1, -, -, -, -⟩ := idx_facts t
  show Run.Vin0 m c main_arg0 (((cfg0.win 0).blk t).view.emb (ix2 r l)) = m ((c : Thread nD τ).loc main_arg0) (ix2 b p)
  show m ((c : Thread nD τ).loc main_arg0) (((cfg0.win 0).blk t).view.emb (ix2 r l)) = m ((c : Thread nD τ).loc main_arg0) (ix2 b p)
  congr 1
  funext a
  apply Fin.ext
  match a with
  | ⟨0, _⟩ => show win0_0.index t (0 : Fin 2) * 256 + 1 * r.val = b.val; rw [e0, hb]; omega
  | ⟨1, _⟩ => show win0_0.index t (1 : Fin 2) * 512 + 1 * l.val = p.val; rw [e1, hp]; omega

/-- The block of W at point t, entry (l, j), is W[512·(t % 4) + l, j]. -/
theorem wblk_apply (c : Dev nD) (t : Fin cfg0.N) (l : Fin 512) (j : Fin 256) (p : Fin 2048)
    (hp : p.val = 512 * (t.val % 4) + l.val) :
    (Mat.wblk (Run.Vin0 m) c t : Vec Ideal S512x256 .f32) (ix2 l j) = warr m c (ix2 p j) := by
  obtain ⟨-, -, e2, e3, -, -⟩ := idx_facts t
  show m ((c : Thread nD τ).loc main_arg1) (((cfg0.win 1).blk t).view.emb (ix2 l j)) = m ((c : Thread nD τ).loc main_arg1) (ix2 p j)
  congr 1
  funext a
  apply Fin.ext
  match a with
  | ⟨0, _⟩ => show win0_1.index t (0 : Fin 2) * 512 + 1 * l.val = p.val; rw [e2, hp]; omega
  | ⟨1, _⟩ => show win0_1.index t (1 : Fin 2) * 256 + 1 * j.val = j.val; rw [e3]; omega

/-! ## The accumulator after each point -/

/-- One term of the product: x[b, p] · W[p, j]. -/
def term (c : Dev nD) (b : Fin 1024) (j : Fin 256) (p : Fin 2048) : EReal := xarr m c (ix2 b p) * warr m c (ix2 p j)

/-- The terms of one block of 512 contraction positions, the block being k mod 4. -/
def blockSum (c : Dev nD) (b : Fin 1024) (j : Fin 256) (k : ℕ) : EReal :=
  ∑ l : Fin 512, term m c b j ⟨512 * (k % 4) + l.val, by have := l.isLt; omega⟩

/-- The block product the body adds at point t, at (r, j), is the block of terms t mod 4 of row 256·(t / 4) + r. -/
theorem prod_at (c : Dev nD) (t : Fin cfg0.N) (r : Fin 256) (j : Fin 256) (b : Fin 1024)
    (hb : b.val = 256 * (t.val / 4) + r.val) :
    ∑ l : Fin 512, (Mat.xblk (Run.Vin0 m) c t : Vec Ideal S256x512 .f32) (ix2 r l) * (Mat.wblk (Run.Vin0 m) c t : Vec Ideal S512x256 .f32) (ix2 l j)
      = blockSum m c b j t.val := by
  unfold blockSum term
  refine Finset.sum_congr rfl fun l _ => ?_
  rw [xblk_apply m c t r l b ⟨512 * (t.val % 4) + l.val, by have := l.isLt; omega⟩ hb rfl,
    wblk_apply m c t l j ⟨512 * (t.val % 4) + l.val, by have := l.isLt; omega⟩ rfl]

/-- After point n = 4·i + k the accumulator holds, at (r, j), the first k + 1 blocks of terms of row 256·i + r:
    a row block's first point adds its block to zero, each later one to what the point before left. -/
theorem accAt_apply (c : Dev nD) : ∀ (n : ℕ) (h : n < cfg0.N) (r : Fin 256) (j : Fin 256) (b : Fin 1024),
    b.val = 256 * (n / 4) + r.val →
    (Mat.accAt (Run.Vin0 m) c n h : Vec Ideal S256x256 .f32) (ix2 r j)
      = ∑ s ∈ Finset.range (n % 4 + 1), blockSum m c b j (4 * (n / 4) + s)
  | 0, h, r, j, b, hb => by
    show (k0_pay2 (Mat.xblk (Run.Vin0 m) c ⟨0, h⟩) (Mat.wblk (Run.Vin0 m) c ⟨0, h⟩) (k0_pay1 (F := Ideal)) : FVec Ideal S256x256 .f32) (ix2 r j) = _
    rw [pay2_apply, pay1_apply, zero_add, prod_at m c ⟨0, h⟩ r j b hb]
    rw [show 0 % 4 + 1 = 1 from rfl, Finset.sum_range_one]
  | n + 1, h, r, j, b, hb => by
    show (k0_pay2 (Mat.xblk (Run.Vin0 m) c ⟨n + 1, h⟩) (Mat.wblk (Run.Vin0 m) c ⟨n + 1, h⟩)
      (if (n + 1) % 4 = 0 then (k0_pay1 (F := Ideal)) else Mat.accAt (Run.Vin0 m) c n (Nat.lt_of_succ_lt h)) : FVec Ideal S256x256 .f32) (ix2 r j) = _
    rw [pay2_apply, prod_at m c ⟨n + 1, h⟩ r j b hb]
    by_cases h0 : (n + 1) % 4 = 0
    · rw [if_pos h0, pay1_apply, zero_add, h0, Finset.sum_range_one]
      show blockSum m c b j (n + 1) = blockSum m c b j (4 * ((n + 1) / 4) + 0)
      rw [show 4 * ((n + 1) / 4) + 0 = n + 1 by omega]
    · rw [if_neg h0]
      have h1 : (n + 1) % 4 = n % 4 + 1 := by omega
      have h2 : (n + 1) / 4 = n / 4 := by omega
      rw [accAt_apply c n (Nat.lt_of_succ_lt h) r j b (by rw [hb, h2]), h1, h2, Finset.sum_range_succ _ (n % 4 + 1)]
      show _ + blockSum m c b j (n + 1) = _
      rw [show 4 * (n / 4) + (n % 4 + 1) = n + 1 by omega]

/-- The four blocks of 512 terms are the 2048 terms of the product. -/
theorem sum_blocks (c : Dev nD) (b : Fin 1024) (j : Fin 256) (q : ℕ) :
    ∑ s ∈ Finset.range 4, blockSum m c b j (4 * q + s) = Cert.Spec.prod (xarr m c) (warr m c) b j := by
  have e : ∑ p : Fin 2048, term m c b j p = ∑ kl : Fin 4 × Fin 512, term m c b j (finProdFinEquiv kl) :=
    (Equiv.sum_comp (finProdFinEquiv (m := 4) (n := 512)) (term m c b j)).symm
  show _ = ∑ p : Fin 2048, term m c b j p
  rw [e, Fintype.sum_prod_type, Finset.sum_range]
  refine Finset.sum_congr rfl fun k _ => ?_
  unfold blockSum
  refine Finset.sum_congr rfl fun l _ => ?_
  congr 1
  apply Fin.ext
  show 512 * ((4 * q + k.val) % 4) + l.val = l.val + 512 * k.val
  have := k.isLt
  omega

/-! ## From the blocks written back to the product array -/

/-- What the product array holds after the region: at (b, j) the product's entry. -/
abbrev result (c : Dev nD) : Buf (Elt Ideal) ((c : Thread nD τ).loc main_v0) := fun i =>
  Cert.Spec.prod (xarr m c) (warr m c) ⟨(i 0).val, idx2_lt0 i⟩ ⟨(i 1).val, idx2_lt1 i⟩

/-- The block a row block's last point (t ≡ 3 mod 4) writes back is that row block of the product: the accumulator
    there holds all four blocks of terms. -/
theorem flushed_eq (c : Dev nD) (t : Fin cfg0.N) (hf : (cfg0.win 2).flush t = true) :
    (Mat.dat0 (Run.Vin0 m) c).flushed 2 t = ((cfg0.win 2).blk t).view.read (Elt Ideal) (result m c) := by
  have h3 : t.val % 4 = 3 := (flush0_2 t).mp hf
  have hN : cfg0.N = 16 := N_0
  have hlt : t.val < 16 := by have := t.isLt; omega
  obtain ⟨-, -, -, -, e4, e5⟩ := idx_facts t
  show (cfg0.win 2).cut (grid0.coords t) ((Mat.dat0 (Run.Vin0 m) c).after 2 t) = _
  funext y
  obtain ⟨r, j, rfl⟩ : ∃ (r : Fin 256) (j : Fin 256), y = ix2 r j := ⟨y 0, y 1, eq_ix2 (n0 := 256) (n1 := 256) y⟩
  have hb : 256 * (t.val / 4) + r.val < 1024 := by have := r.isLt; omega
  have hx : (cfg0.win 2).xinj (grid0.coords t) (ix2 r j) = ix2 r j :=
    funext fun a => by match a with | ⟨0, _⟩ => rfl | ⟨1, _⟩ => rfl
  have hemb : ((cfg0.win 2).blk t).view.emb (ix2 r j) = ix2 (⟨256 * (t.val / 4) + r.val, hb⟩ : Fin 1024) j := by
    funext a
    apply Fin.ext
    match a with
    | ⟨0, _⟩ => show win0_2.index t (0 : Fin 2) * 256 + 1 * r.val = 256 * (t.val / 4) + r.val; rw [e4]; omega
    | ⟨1, _⟩ => show win0_2.index t (1 : Fin 2) * 256 + 1 * j.val = j.val; rw [e5]; omega
  show (Mat.accAt (Run.Vin0 m) c t.val t.isLt : Vec Ideal S256x256 .f32) ((cfg0.win 2).xinj (grid0.coords t) (ix2 r j))
    = result m c (((cfg0.win 2).blk t).view.emb (ix2 r j))
  rw [hx, hemb, accAt_apply m c t.val t.isLt r j ⟨256 * (t.val / 4) + r.val, hb⟩ rfl, h3]
  exact sum_blocks m c _ j (t.val / 4)

/-- An index of the product array is in point t's block iff each coordinate is in the block's range on its axis. -/
theorem mem_blk (t : Fin cfg0.N) (i : S1024x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v0).slice (win0_2.rect t)).set ↔ _
  rw [View.set_slice_whole, Rect.mem_set_unit]
  exact Iff.rfl

/-- Every index of the product array is in the block some row block's last point writes back: row b is in row block
    b / 256, written back at point 4·(b / 256) + 3. -/
theorem cover (i : S1024x256.Idx) : ∃ t : Fin cfg0.N, (cfg0.win 2).flush t = true ∧ i ∈ ((cfg0.win 2).blk t).view.set := by
  have h0 : (i 0).val < 1024 := idx2_lt0 i
  have h1 : (i 1).val < 256 := idx2_lt1 i
  have hN : cfg0.N = 16 := N_0
  obtain ⟨t, ht⟩ : ∃ t : Fin cfg0.N, t.val = 4 * ((i 0).val / 256) + 3 := ⟨⟨4 * ((i 0).val / 256) + 3, by omega⟩, rfl⟩
  obtain ⟨-, -, -, -, e4, e5⟩ := idx_facts t
  refine ⟨t, (flush0_2 t).mpr (by omega), ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- So the product array ends holding the product. -/
theorem final (c : Dev nD) : (Mat.dat0 (Run.Vin0 m) c).arrAt 2 cfg0.N = result m c :=
  (Mat.dat0 (Run.Vin0 m) c).arrAt_eq_of_cover 2 (result m c) (flushed_eq m c) cover

/-- The product array after the first region, at (b, j), is Σ_l x[b, l] · W[l, j] over all 2048 contraction positions. -/
theorem mOut_apply (c : Dev nD) (b : Fin 1024) (j : Fin 256) :
    (Run.mOut (F := Ideal) m c : S1024x256.Idx → EReal) (ValueIdx.ix2 b j)
      = Cert.Spec.prod (m ((c : Thread nD τ).loc main_arg0)) (m ((c : Thread nD τ).loc main_arg1)) b j := by
  unfold Run.mOut
  rw [final m c]
  rfl

end Cert.KernelIdeal.MatValue

end
-- ==== Proof.DiscValue.lean ====
/- The value of the feature array after the all-pairs region. The region's 8 × 8 grid visits point t = 8·i + j with the
   query block (columns 128·i …) and the key block (columns 128·j …) of the transposed product mT : 8 × 32 × 1024. One
   step adds to the 32 × 128 output block, at (κ, r), the sum over the 128 key columns s of
   exp(−Σ_d |mT[d, κ, 128·i + r] − mT[d, κ, 128·j + s]|); the block starts from zeros at j = 0 and is written back at
   j = 7. So after point 8·i + j the block holds the sums of key blocks 0 … j (induction on the point), the block
   written back at 8·i + 7 holds the sum over all 1024 columns, and the 8 write-backs tile the 32 × 1024 array. Over the
   extended reals 0 + a = a, 0 − a = −a, and addition is associative and commutative without side conditions, so no
   finiteness is asked anywhere. -/
import proofs.«101916_j52879637348745_1_alg».proof.Proof.RunDefs
import proofs.«101916_j52879637348745_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.DiscValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The layout steps of the body, read at an index -/

/-- Feature slice d of a block, read at (0, κ, r), is the block at (d, κ, r). -/
theorem ld_slice (X : Vec Ideal S8x32x128 .f32) (off : Fin 3 → Nat) (inb : ∀ a, off a + S1x32x128.size a ≤ S8x32x128.size a)
    (d : Fin 8) (h0 : off 0 = d.val) (h1 : off 1 = 0) (h2 : off 2 = 0) (κ : Fin 32) (r : Fin 128) :
    View.ld X (Rect.unit (s := S8x32x128) off S1x32x128.size inb) (ix3 (0 : Fin 1) κ r) = X (ix3 d κ r) := by
  unfold View.ld
  congr 1
  funext a
  apply Fin.ext
  match a with
  | ⟨0, _⟩ => show off 0 + 1 * 0 = d.val; omega
  | ⟨1, _⟩ => show off 1 + 1 * κ.val = κ.val; omega
  | ⟨2, _⟩ => show off 2 + 1 * r.val = r.val; omega

/-- A [32,128] array as a column [32,128,1] broadcast along a new last axis reads (κ, r, s) at (κ, r). -/
theorem col_apply (v : FVec Ideal S32x128 .f32) (h2 : S32x128.ShapeCasts S32x128x1)
    (h3 : S32x128x1.Broadcasts S32x128x128) (κ : Fin 32) (r s : Fin 128) :
    broadcastTo S32x128x128 (shapeCast S32x128x1 v h2) h3 (ix3 κ r s) = v (ix2 κ r) := by
  rw [broadcastTo_apply _ h3 (ix3 κ r s) (ix3 κ r (0 : Fin 1)) (fun a => by
    match a with
    | ⟨0, _⟩ => rfl
    | ⟨1, _⟩ => rfl
    | ⟨2, _⟩ => rfl)]
  exact shapeCast_apply _ h2 (ix3 κ r (0 : Fin 1)) (ix2 κ r) (by
    rw [Shape.rowMajor_val_three, Shape.rowMajor_val_two]
    show κ.val * 128 + r.val = (κ.val * 128 + r.val) * 1 + 0
    omega)

/-- A [32,128] array as a row [32,1,128] broadcast along a new middle axis reads (κ, r, s) at (κ, s). -/
theorem row_apply (v : FVec Ideal S32x128 .f32) (h2 : S32x128.ShapeCasts S32x1x128)
    (h3 : S32x1x128.Broadcasts S32x128x128) (κ : Fin 32) (r s : Fin 128) :
    broadcastTo S32x128x128 (shapeCast S32x1x128 v h2) h3 (ix3 κ r s) = v (ix2 κ s) := by
  rw [broadcastTo_apply _ h3 (ix3 κ r s) (ix3 κ (0 : Fin 1) s) (fun a => by
    match a with
    | ⟨0, _⟩ => rfl
    | ⟨1, _⟩ => rfl
    | ⟨2, _⟩ => rfl)]
  exact shapeCast_apply _ h2 (ix3 κ (0 : Fin 1) s) (ix2 κ s) (by
    rw [Shape.rowMajor_val_three, Shape.rowMajor_val_two]
    show κ.val * 128 + s.val = (κ.val * 1 + 0) * 128 + s.val
    omega)

/-- One feature's term of the body: |column − row| at (κ, r, s) is |a[κ, r] − b[κ, s]|. -/
theorem pair_apply (a b : FVec Ideal S32x128 .f32) (h2 : S32x128.ShapeCasts S32x128x1) (h3 : S32x128x1.Broadcasts S32x128x128)
    (h2' : S32x128.ShapeCasts S32x1x128) (h3' : S32x1x128.Broadcasts S32x128x128) (κ : Fin 32) (r s : Fin 128) :
    absf (subf (broadcastTo S32x128x128 (shapeCast S32x128x1 a h2) h3) (broadcastTo S32x128x128 (shapeCast S32x1x128 b h2') h3'))
      (ix3 κ r s) = Cert.Spec.abs (a (ix2 κ r) - b (ix2 κ s)) := by
  show max (_ - _) (-(_ - _)) = _
  rw [col_apply, row_apply]
  rfl

/-- The same over two [1,32,128] slices viewed [32,128]. -/
theorem pair_slice_apply (a b : FVec Ideal S1x32x128 .f32) (h1 : S1x32x128.ShapeCasts S32x128)
    (h2 : S32x128.ShapeCasts S32x128x1) (h3 : S32x128x1.Broadcasts S32x128x128)
    (h2' : S32x128.ShapeCasts S32x1x128) (h3' : S32x1x128.Broadcasts S32x128x128) (κ : Fin 32) (r s : Fin 128) :
    absf (subf (broadcastTo S32x128x128 (shapeCast S32x128x1 (shapeCast S32x128 a h1) h2) h3)
        (broadcastTo S32x128x128 (shapeCast S32x1x128 (shapeCast S32x128 b h1) h2') h3'))
      (ix3 κ r s) = Cert.Spec.abs (a (ix3 (0 : Fin 1) κ r) - b (ix3 (0 : Fin 1) κ s)) := by
  rw [pair_apply, shapeCast_1ab_ab_apply, shapeCast_1ab_ab_apply]

/-- The lane reduction with initial value zero, read at (κ, r): the plain sum over the 128 lanes. -/
theorem lane_sum (src : FVec Ideal S32x128x128 .f32) (h : S32x128x128.Reduces [2] S32x128) (hφ : FKind.Formats .f32)
    (hacc : (0x00000000#32 : BitVec FTy.f32.bits) = FKind.add.neutral .f32 hφ) (κ : Fin 32) (r : Fin 128) :
    multiReduction (F := Ideal) .add [2] S32x128 src 0x00000000#32 h hφ hacc (ix2 κ r) = ∑ s : Fin 128, src (ix3 κ r s) := by
  refine (Ideal.multiReduction_add_single src 0x00000000#32 h hφ hacc (ix2 κ r)).trans ?_
  refine Finset.sum_congr rfl fun s _ => congrArg src ?_
  funext a
  apply Fin.ext
  match a with
  | ⟨0, _⟩ => rfl
  | ⟨1, _⟩ => rfl
  | ⟨2, _⟩ => rfl

/-! ## The body's payloads at an index -/

theorem pay4_apply (a b : FVec Ideal S1x32x128 .f32) (κ : Fin 32) (r s : Fin 128) :
    k1_pay4 (F := Ideal) a b (ix3 κ r s) = Cert.Spec.abs (a (ix3 (0 : Fin 1) κ r) - b (ix3 (0 : Fin 1) κ s)) := by
  unfold k1_pay4
  rw [pair_slice_apply]

theorem pay3_apply (a0 b0 a1 b1 : FVec Ideal S1x32x128 .f32) (κ : Fin 32) (r s : Fin 128) :
    k1_pay3 (F := Ideal) a0 b0 a1 b1 (ix3 κ r s)
      = Cert.Spec.abs (a0 (ix3 (0 : Fin 1) κ r) - b0 (ix3 (0 : Fin 1) κ s))
          + Cert.Spec.abs (a1 (ix3 (0 : Fin 1) κ r) - b1 (ix3 (0 : Fin 1) κ s)) := by
  unfold k1_pay3
  rw [addf_apply, addf_apply, pair_slice_apply, pair_slice_apply, broadcast_apply]
  show Ideal.ofBits .f32 0x00000000#32 + _ + _ = _
  rw [Ideal.ofBits_zero_f32, zero_add]

theorem pay5_apply (v25 v35 : FVec Ideal S32x128x128 .f32) (a3 b3 a4 b4 a5 b5 : FVec Ideal S1x32x128 .f32) (κ : Fin 32) (r s : Fin 128) :
    k1_pay5 (F := Ideal) v25 v35 a3 b3 a4 b4 a5 b5 (ix3 κ r s)
      = v25 (ix3 κ r s) + v35 (ix3 κ r s)
          + Cert.Spec.abs (a3 (ix3 (0 : Fin 1) κ r) - b3 (ix3 (0 : Fin 1) κ s))
          + Cert.Spec.abs (a4 (ix3 (0 : Fin 1) κ r) - b4 (ix3 (0 : Fin 1) κ s))
          + Cert.Spec.abs (a5 (ix3 (0 : Fin 1) κ r) - b5 (ix3 (0 : Fin 1) κ s)) := by
  unfold k1_pay5
  rw [addf_apply, addf_apply, addf_apply, addf_apply, pair_slice_apply, pair_slice_apply, pair_slice_apply]

theorem pay1_apply (v69 : FVec Ideal S32x128x128 .f32) (v71 : FVec Ideal S32x128 .f32) (b6 a7 b7 : FVec Ideal S1x32x128 .f32)
    (prev : FVec Ideal S32x128 .f32) (κ : Fin 32) (r : Fin 128) :
    k1_pay1 (F := Ideal) v69 v71 b6 a7 b7 prev (ix2 κ r)
      = prev (ix2 κ r) + ∑ s : Fin 128, Ideal.exp (-(v69 (ix3 κ r s)
          + Cert.Spec.abs (v71 (ix2 κ r) - b6 (ix3 (0 : Fin 1) κ s))
          + Cert.Spec.abs (a7 (ix3 (0 : Fin 1) κ r) - b7 (ix3 (0 : Fin 1) κ s)))) := by
  unfold k1_pay1
  rw [addf_apply, shapeCast_self]
  refine congrArg (prev (ix2 κ r) + ·) ?_
  refine (lane_sum _ _ _ _ κ r).trans ?_
  refine Finset.sum_congr rfl fun s _ => ?_
  show Ideal.exp (Ideal.ofBits .f32 0x00000000#32 - _) = _
  rw [Ideal.ofBits_zero_f32, zero_sub, addf_apply, addf_apply, pair_slice_apply, pair_apply, shapeCast_1ab_ab_apply]

theorem ld_sl0 (X : Vec Ideal S8x32x128 .f32) (κ : Fin 32) (r : Fin 128) :
    View.ld X Disc.sl0 (ix3 (0 : Fin 1) κ r) = X (ix3 (0 : Fin 8) κ r) :=
  ld_slice X ![0, 0, 0] inb_S8x32x128_S1x32x128_0_0_0 0 rfl rfl rfl κ r
theorem ld_sl1 (X : Vec Ideal S8x32x128 .f32) (κ : Fin 32) (r : Fin 128) :
    View.ld X Disc.sl1 (ix3 (0 : Fin 1) κ r) = X (ix3 (1 : Fin 8) κ r) :=
  ld_slice X ![1, 0, 0] inb_S8x32x128_S1x32x128_1_0_0 1 rfl rfl rfl κ r
theorem ld_sl2 (X : Vec Ideal S8x32x128 .f32) (κ : Fin 32) (r : Fin 128) :
    View.ld X Disc.sl2 (ix3 (0 : Fin 1) κ r) = X (ix3 (2 : Fin 8) κ r) :=
  ld_slice X ![2, 0, 0] inb_S8x32x128_S1x32x128_2_0_0 2 rfl rfl rfl κ r
theorem ld_sl3 (X : Vec Ideal S8x32x128 .f32) (κ : Fin 32) (r : Fin 128) :
    View.ld X Disc.sl3 (ix3 (0 : Fin 1) κ r) = X (ix3 (3 : Fin 8) κ r) :=
  ld_slice X ![3, 0, 0] inb_S8x32x128_S1x32x128_3_0_0 3 rfl rfl rfl κ r
theorem ld_sl4 (X : Vec Ideal S8x32x128 .f32) (κ : Fin 32) (r : Fin 128) :
    View.ld X Disc.sl4 (ix3 (0 : Fin 1) κ r) = X (ix3 (4 : Fin 8) κ r) :=
  ld_slice X ![4, 0, 0] inb_S8x32x128_S1x32x128_4_0_0 4 rfl rfl rfl κ r
theorem ld_sl5 (X : Vec Ideal S8x32x128 .f32) (κ : Fin 32) (r : Fin 128) :
    View.ld X Disc.sl5 (ix3 (0 : Fin 1) κ r) = X (ix3 (5 : Fin 8) κ r) :=
  ld_slice X ![5, 0, 0] inb_S8x32x128_S1x32x128_5_0_0 5 rfl rfl rfl κ r
theorem ld_sl6 (X : Vec Ideal S8x32x128 .f32) (κ : Fin 32) (r : Fin 128) :
    View.ld X Disc.sl6 (ix3 (0 : Fin 1) κ r) = X (ix3 (6 : Fin 8) κ r) :=
  ld_slice X ![6, 0, 0] inb_S8x32x128_S1x32x128_6_0_0 6 rfl rfl rfl κ r
theorem ld_sl7 (X : Vec Ideal S8x32x128 .f32) (κ : Fin 32) (r : Fin 128) :
    View.ld X Disc.sl7 (ix3 (0 : Fin 1) κ r) = X (ix3 (7 : Fin 8) κ r) :=
  ld_slice X ![7, 0, 0] inb_S8x32x128_S1x32x128_7_0_0 7 rfl rfl rfl κ r

/-- The step of one grid point at (κ, r): the previous contents plus, over the 128 key columns s, exp of minus the L1
    distance over the 8 features between query column r and key column s. On the extended reals 0 + a = a and
    0 − a = −a, and the body's left-nested sum of the eight terms is the sum over the features. -/
theorem discStep_apply (q k : FVec Ideal S8x32x128 .f32) (prev : FVec Ideal S32x128 .f32) (κ : Fin 32) (r : Fin 128) :
    Disc.discStep (F := Ideal) q k prev (ix2 κ r)
      = prev (ix2 κ r) + ∑ s : Fin 128, Ideal.exp (-(∑ d : Fin 8, Cert.Spec.abs (q (ix3 d κ r) - k (ix3 d κ s)))) := by
  unfold Disc.discStep
  rw [pay1_apply]
  refine congrArg (prev (ix2 κ r) + ·) ?_
  refine Finset.sum_congr rfl fun s _ => ?_
  rw [pay5_apply, pay3_apply, pay4_apply]
  unfold k1_pay6
  rw [shapeCast_1ab_ab_apply, Fin.sum_univ_eight]
  rw [ld_sl0, ld_sl0, ld_sl1, ld_sl1, ld_sl2, ld_sl2, ld_sl3, ld_sl3, ld_sl4, ld_sl4, ld_sl5, ld_sl5, ld_sl6, ld_sl6,
    ld_sl7, ld_sl7]

/-! ## The blocks the region reads, at an index -/

/-- The transposed product array the second region is entered from, at its literal type. -/
abbrev mT (m : (ℓ : Loc nD τ sig) → Buf (Elt Ideal) ℓ) (c : Dev nD) : S8x32x1024.Idx → EReal := Run.W2 (F := Ideal) m c main_v2

/-- Column 128·a + b of the 1024, as a total function of two naturals. -/
def colN (a b : ℕ) : Fin 1024 := ⟨(128 * a + b) % 1024, Nat.mod_lt _ (by norm_num)⟩

/-- The printed index maps over the 8 × 8 grid, point t = 8·i + j: the query window sits at column block i, the key
    window at column block j, the output window at column block i. -/
theorem idx_facts : ∀ t : Fin cfg1.N,
    win1_0.index t (0 : Fin 3) = 0 ∧ win1_0.index t (1 : Fin 3) = 0 ∧ win1_0.index t (2 : Fin 3) = t.val / 8
    ∧ win1_1.index t (0 : Fin 3) = 0 ∧ win1_1.index t (1 : Fin 3) = 0 ∧ win1_1.index t (2 : Fin 3) = t.val % 8
    ∧ win1_2.index t (0 : Fin 2) = 0 ∧ win1_2.index t (1 : Fin 2) = t.val / 8 :=
  (by decide +kernel : ∀ t : Fin grid1.N, _)

variable (m : (ℓ : Loc nD τ sig) → Buf (Elt Ideal) ℓ) (c : Dev nD)

/-- The query block at point t reads the array at columns 128·(t / 8) + r. -/
theorem qblk_apply (t : Fin cfg1.N) (d : Fin 8) (κ : Fin 32) (r : Fin 128) :
    (Disc.qblk (Run.Vin1 m) c t : S8x32x128.Idx → EReal) (ix3 d κ r) = mT m c (ix3 d κ (colN (t.val / 8) r.val)) := by
  obtain ⟨e0, e1, e2, -, -, -, -, -⟩ := idx_facts t
  have hN : t.val < 64 := lt_of_lt_of_eq t.isLt N_1
  show mT m c (((cfg1.win 0).blk t).view.emb (ix3 d κ r)) = _
  refine congrArg (mT m c) ?_
  funext a
  apply Fin.ext
  match a with
  | ⟨0, _⟩ => show win1_0.index t (0 : Fin 3) * 8 + 1 * d.val = d.val; rw [e0]; omega
  | ⟨1, _⟩ => show win1_0.index t (1 : Fin 3) * 32 + 1 * κ.val = κ.val; rw [e1]; omega
  | ⟨2, _⟩ => show win1_0.index t (2 : Fin 3) * 128 + 1 * r.val = (128 * (t.val / 8) + r.val) % 1024; rw [e2]; omega

/-- The key block at point t reads the array at columns 128·(t % 8) + s. -/
theorem kblk_apply (t : Fin cfg1.N) (d : Fin 8) (κ : Fin 32) (s : Fin 128) :
    (Disc.kblk (Run.Vin1 m) c t : S8x32x128.Idx → EReal) (ix3 d κ s) = mT m c (ix3 d κ (colN (t.val % 8) s.val)) := by
  obtain ⟨-, -, -, e0, e1, e2, -, -⟩ := idx_facts t
  have hN : t.val < 64 := lt_of_lt_of_eq t.isLt N_1
  show mT m c (((cfg1.win 1).blk t).view.emb (ix3 d κ s)) = _
  refine congrArg (mT m c) ?_
  funext a
  apply Fin.ext
  match a with
  | ⟨0, _⟩ => show win1_1.index t (0 : Fin 3) * 8 + 1 * d.val = d.val; rw [e0]; omega
  | ⟨1, _⟩ => show win1_1.index t (1 : Fin 3) * 32 + 1 * κ.val = κ.val; rw [e1]; omega
  | ⟨2, _⟩ => show win1_1.index t (2 : Fin 3) * 128 + 1 * s.val = (128 * (t.val % 8) + s.val) % 1024; rw [e2]; omega

/-! ## The accumulation over the key blocks -/

/-- exp(−L1 distance over the 8 features) between columns x and y of kernel κ. -/
def E (κ : Fin 32) (x y : Fin 1024) : EReal :=
  Ideal.exp (-(∑ d : Fin 8, Cert.Spec.abs (mT m c (ix3 d κ x) - mT m c (ix3 d κ y))))

/-- What one grid point adds at query column x: the sum over the 128 columns of key block j. -/
def rowSum (κ : Fin 32) (x : Fin 1024) (j : ℕ) : EReal := ∑ s : Fin 128, E m c κ x (colN j s.val)

/-- The step at point t = 8·i + j adds key block j's sum at query column 128·i + r. -/
theorem step_apply (t : Fin cfg1.N) (prev : FVec Ideal S32x128 .f32) (κ : Fin 32) (r : Fin 128) :
    Disc.discStep (F := Ideal) (Disc.qblk (Run.Vin1 m) c t) (Disc.kblk (Run.Vin1 m) c t) prev (ix2 κ r)
      = prev (ix2 κ r) + rowSum m c κ (colN (t.val / 8) r.val) (t.val % 8) := by
  rw [discStep_apply]
  refine congrArg (prev (ix2 κ r) + ·) ?_
  unfold rowSum
  refine Finset.sum_congr rfl fun s _ => ?_
  unfold E
  refine congrArg (fun z => Ideal.exp (-z)) (Finset.sum_congr rfl fun d _ => ?_)
  rw [qblk_apply, kblk_apply]

/-- After point n = 8·i + j the output block holds, at (κ, r), the sums of key blocks 0 … j at query column
    128·i + r: by induction on the point; at j = 0 the step starts from zeros. -/
theorem outAt_apply : ∀ (n : ℕ) (h : n < cfg1.N) (κ : Fin 32) (r : Fin 128),
    (Disc.outAt (Run.Vin1 m) c n h : S32x128.Idx → EReal) (ix2 κ r)
      = ∑ j ∈ Finset.range (n % 8 + 1), rowSum m c κ (colN (n / 8) r.val) j
  | 0, h, κ, r => by
    show Disc.discStep (F := Ideal) (Disc.qblk (Run.Vin1 m) c ⟨0, h⟩) (Disc.kblk (Run.Vin1 m) c ⟨0, h⟩) (k1_pay2 (F := Ideal)) (ix2 κ r) = _
    rw [step_apply]
    show Ideal.ofBits .f32 0x00000000#32 + _ = _
    rw [Ideal.ofBits_zero_f32, zero_add]
    show _ = ∑ j ∈ Finset.range 1, _
    rw [Finset.sum_range_one]
    rfl
  | n + 1, h, κ, r => by
    by_cases h0 : (n + 1) % 8 = 0
    · show Disc.discStep (F := Ideal) (Disc.qblk (Run.Vin1 m) c ⟨n + 1, h⟩) (Disc.kblk (Run.Vin1 m) c ⟨n + 1, h⟩)
        (if (n + 1) % 8 = 0 then (k1_pay2 (F := Ideal)) else Disc.outAt (Run.Vin1 m) c n (Nat.lt_of_succ_lt h)) (ix2 κ r) = _
      rw [if_pos h0, step_apply]
      show Ideal.ofBits .f32 0x00000000#32 + rowSum m c κ (colN ((n + 1) / 8) r.val) ((n + 1) % 8) = _
      rw [Ideal.ofBits_zero_f32, zero_add, h0, Finset.sum_range_one]
    · show Disc.discStep (F := Ideal) (Disc.qblk (Run.Vin1 m) c ⟨n + 1, h⟩) (Disc.kblk (Run.Vin1 m) c ⟨n + 1, h⟩)
        (if (n + 1) % 8 = 0 then (k1_pay2 (F := Ideal)) else Disc.outAt (Run.Vin1 m) c n (Nat.lt_of_succ_lt h)) (ix2 κ r) = _
      rw [if_neg h0, step_apply]
      show (Disc.outAt (Run.Vin1 m) c n (Nat.lt_of_succ_lt h) : S32x128.Idx → EReal) (ix2 κ r)
        + rowSum m c κ (colN ((n + 1) / 8) r.val) ((n + 1) % 8) = _
      rw [outAt_apply n (Nat.lt_of_succ_lt h) κ r]
      have e1 : (n + 1) / 8 = n / 8 := by omega
      have e2 : (n + 1) % 8 = n % 8 + 1 := by omega
      rw [e1, e2, Finset.sum_range_succ _ (n % 8 + 1)]

/-! ## From the blocks to the array -/

/-- The columns as (key block, column in the block). -/
def cellEquiv : Fin 8 × Fin 128 ≃ Fin 1024 where
  toFun p := colN p.1.val p.2.val
  invFun b := (⟨b.val / 128, by have := b.isLt; omega⟩, ⟨b.val % 128, Nat.mod_lt _ (by norm_num)⟩)
  left_inv p := by
    obtain ⟨⟨j, hj⟩, ⟨s, hs⟩⟩ := p
    refine Prod.ext (Fin.ext ?_) (Fin.ext ?_)
    · show (128 * j + s) % 1024 / 128 = j; omega
    · show (128 * j + s) % 1024 % 128 = s; omega
  right_inv b := by
    apply Fin.ext
    show (128 * (b.val / 128) + b.val % 128) % 1024 = b.val
    have := b.isLt; omega

/-- The eight key blocks' sums make the sum over all 1024 columns. -/
theorem sum_rows (κ : Fin 32) (x : Fin 1024) :
    ∑ j ∈ Finset.range 8, rowSum m c κ x j = ∑ b' : Fin 1024, E m c κ x b' := by
  rw [Finset.sum_range]
  unfold rowSum
  rw [← Fintype.sum_prod_type' (f := fun (j : Fin 8) (s : Fin 128) => E m c κ x (colN j.val s.val))]
  exact Fintype.sum_equiv cellEquiv _ _ fun p => rfl

/-- The feature array in closed form: at (κ, b) the sum over all columns b' of exp(−L1 distance). -/
def G : S32x1024.Idx → EReal := fun i =>
  ∑ b' : Fin 1024, E m c ⟨(i 0).val, idx2_lt0 i⟩ ⟨(i 1).val, idx2_lt1 i⟩ b'

/-- What the last point of query block i writes back is block i of the closed form. -/
theorem flushed_eq (t : Fin cfg1.N) (hf : (cfg1.win 2).flush t = true) :
    (Disc.dat1 (Run.Vin1 m) c).flushed 2 t = ((cfg1.win 2).blk t).view.read (Elt Ideal) (G m c) := by
  have h7 : t.val % 8 = 7 := (flush1_2 t).mp hf
  have hN : t.val < 64 := lt_of_lt_of_eq t.isLt N_1
  obtain ⟨-, -, -, -, -, -, e0, e1⟩ := idx_facts t
  refine funext fun (j : S32x128.Idx) => ?_
  obtain ⟨κ, r, rfl⟩ : ∃ (κ : Fin 32) (r : Fin 128), j = ix2 κ r := ⟨j 0, j 1, eq_ix2 j⟩
  show (Disc.outAt (Run.Vin1 m) c t.val t.isLt : S32x128.Idx → EReal) (ix2 κ r)
    = G m c (((cfg1.win 2).blk t).view.emb (ix2 κ r))
  rw [outAt_apply, h7]
  show ∑ j ∈ Finset.range 8, _ = ∑ b' : Fin 1024, E m c _ _ b'
  rw [sum_rows]
  refine Finset.sum_congr rfl fun b' _ => ?_
  congr 1 <;> apply Fin.ext
  · show κ.val = win1_2.index t (0 : Fin 2) * 32 + 1 * κ.val; rw [e0]; omega
  · show (128 * (t.val / 8) + r.val) % 1024 = win1_2.index t (1 : Fin 2) * 128 + 1 * r.val; rw [e1]; omega

/-- Every index of the array is in the block some write-back point writes: column b is in column block b / 128,
    written back at point 8·(b / 128) + 7. -/
theorem covered (i : S32x1024.Idx) :
    ∃ t : Fin cfg1.N, (cfg1.win 2).flush t = true ∧ i ∈ ((cfg1.win 2).blk t).view.set := by
  have h0 : (i 0).val < 32 := idx2_lt0 i
  have h1 : (i 1).val < 1024 := idx2_lt1 i
  have hlt : 8 * ((i 1).val / 128) + 7 < cfg1.N := lt_of_lt_of_eq (by omega) N_1.symm
  refine ⟨⟨8 * ((i 1).val / 128) + 7, hlt⟩, (flush1_2 _).mpr (by show (8 * ((i 1).val / 128) + 7) % 8 = 7; omega), ?_⟩
  obtain ⟨-, -, -, -, -, -, e0, e1⟩ := idx_facts ⟨8 * ((i 1).val / 128) + 7, hlt⟩
  show i ∈ ((View.whole main_v3).slice (win1_2.rect ⟨8 * ((i 1).val / 128) + 7, hlt⟩)).set
  rw [View.set_slice_whole, Rect.mem_set_unit]
  intro a
  match a with
  | ⟨0, _⟩ =>
    show win1_2.index ⟨8 * ((i 1).val / 128) + 7, hlt⟩ (0 : Fin 2) * 32 ≤ (i 0).val
      ∧ (i 0).val < win1_2.index ⟨8 * ((i 1).val / 128) + 7, hlt⟩ (0 : Fin 2) * 32 + 32
    rw [e0]; omega
  | ⟨1, _⟩ =>
    show win1_2.index ⟨8 * ((i 1).val / 128) + 7, hlt⟩ (1 : Fin 2) * 128 ≤ (i 1).val
      ∧ (i 1).val < win1_2.index ⟨8 * ((i 1).val / 128) + 7, hlt⟩ (1 : Fin 2) * 128 + 128
    rw [e1]
    show (8 * ((i 1).val / 128) + 7) / 8 * 128 ≤ (i 1).val ∧ (i 1).val < (8 * ((i 1).val / 128) + 7) / 8 * 128 + 128
    omega

/-- The feature array after the second region is the closed form. -/
theorem dOut_eq : Run.dOut (F := Ideal) m c = G m c := by
  unfold Run.dOut
  exact (Disc.dat1 (Run.Vin1 m) c).arrAt_eq_of_cover 2 (G m c) (fun t hf => flushed_eq m c t hf) covered

/-- The feature array after the second region, index by index: at (k, b) the sum over all columns b' of
    exp(−Σ_d |mT[d, k, b] − mT[d, k, b']|). -/
theorem dOut_apply (k : Fin 32) (b : Fin 1024) :
    (Run.dOut (F := Ideal) m c : S32x1024.Idx → EReal) (ValueIdx.ix2 k b)
      = ∑ b' : Fin 1024, Ideal.exp (-(∑ d : Fin 8, Cert.Spec.abs (mT m c (ValueIdx.ix3 d k b) - mT m c (ValueIdx.ix3 d k b')))) := by
  rw [dOut_eq]
  rfl

end Cert.KernelIdeal.DiscValue

end
-- ==== Proof.Bridge.lean ====
/- The kernel program's result is the specification. Between and after the two regions @main only relays data:
   the product array is read as [1024, 32, 8] and transposed to [8, 32, 1024] (so feature d of kernel k of row b sits
   at (d, k, b) and is the product's column 8·k + d), the feature array [32, 1024] is transposed to [1024, 32] and
   appended to x. -/
import proofs.«101916_j52879637348745_1_alg».proof.Proof.RunDefs
import proofs.«101916_j52879637348745_1_alg».proof.Proof.Spec
import proofs.«101916_j52879637348745_1_alg».proof.Proof.MatValue
import proofs.«101916_j52879637348745_1_alg».proof.Proof.DiscValue
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Bridge

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-- The argument arrays at their literal types. -/
abbrev X : Cert.Spec.SX.Idx → EReal := m ((c : Thread nD τ).loc main_arg0)
abbrev Wt : Cert.Spec.SW.Idx → EReal := m ((c : Thread nD τ).loc main_arg1)
/-- The feature array the second region leaves, at its literal type. -/
abbrev fArr : S32x1024.Idx → EReal := Run.dOut (F := Ideal) m c
/-- The product array the first region leaves, at its literal type. -/
abbrev mArr : S1024x256.Idx → EReal := Run.mOut (F := Ideal) m c

/-- The transposed product as the host operations build it from the product array. -/
theorem mT_eq : (Run.W2 (F := Ideal) m c main_v2 : S8x32x1024.Idx → EReal)
    = transpose S8x32x1024 [2, 1, 0] (shapeCast S1024x32x8 (mArr m c) shapeCasts_S1024x256_S1024x32x8) transposes_S1024x32x8_S8x32x1024_2_1_0 := by
  show StableHlo.after hostOps1 (Function.update (Gen.V0 m c) main_v0 (Run.mOut m c)) (Proc.devRef .tc main_v2) = _
  after_results
  rfl

/-- Feature d of kernel k of row b, as the second region reads it, is the product at column 8·k + d:
    (b·32 + k)·8 + d = b·256 + (8·k + d). -/
theorem mT_apply (d : Fin 8) (k : Fin 32) (b : Fin 1024) :
    DiscValue.mT m c (ix3 d k b) = Cert.Spec.prod (X m c) (Wt m c) b (Cert.Spec.col k d) := by
  show (Run.W2 (F := Ideal) m c main_v2 : S8x32x1024.Idx → EReal) (ix3 d k b) = _
  rw [mT_eq]
  generalize hy : shapeCast S1024x32x8 (mArr m c) shapeCasts_S1024x256_S1024x32x8 = y
  rw [transpose_apply [2, 1, 0] y transposes_S1024x32x8_S8x32x1024_2_1_0 (ix3 d k b) (ix3 b k d)
    (fun a => match a with | ⟨0, _⟩ => rfl | ⟨1, _⟩ => rfl | ⟨2, _⟩ => rfl)]
  subst hy
  rw [shapeCast_apply (mArr m c) shapeCasts_S1024x256_S1024x32x8 (ix3 b k d) (ix2 b (Cert.Spec.col k d))
    (by rewrite [Shape.rowMajor_val_two, Shape.rowMajor_val_three]
        have hb := b.isLt; have hk := k.isLt; have hd := d.isLt
        show b.val * 256 + (8 * k.val + d.val) = (b.val * 32 + k.val) * 8 + d.val; omega)]
  exact MatValue.mOut_apply m c b (Cert.Spec.col k d)

/-- The result buffer as the last host operations build it: x with the transposed feature array appended. -/
theorem out_eq : (Gen.V4 (F := Ideal) m (Run.outs m) c main_v5 : S1024x2080.Idx → EReal)
    = concatenate S1024x2080 1 [⟨S1024x2048, X m c⟩, ⟨S1024x32, transpose S1024x32 [1, 0] (fArr m c) transposes_S32x1024_S1024x32_1_0⟩]
        concatenates_S1024x2048_S1024x32_S1024x2080_d1 := by
  show StableHlo.after hostOps2 (Gen.V3 m (Run.outs m) c) (Proc.devRef .tc main_v5) = _
  rw [Run.V3_eq]
  after_results
  rfl

/-- The kernel program's result is the specification of its two arguments: a column below 2048 is x's; column
    2048 + k of row b is entry (k, b) of the feature array, the sum over all rows b' of exp(−L1 distance), the
    distance over the eight features of kernel k, each the product's column 8·k + d. -/
theorem result_eq : (Gen.V4 (F := Ideal) m (Run.outs m) c main_v5 : S1024x2080.Idx → EReal) = Cert.Spec.G (X m c) (Wt m c) := by
  rw [out_eq]
  funext i
  obtain ⟨b, j, rfl⟩ : ∃ (b : Fin 1024) (j : Fin 2080), i = ix2 b j := ⟨i 0, i 1, eq_ix2 i⟩
  unfold Cert.Spec.G
  generalize hy : transpose S1024x32 [1, 0] (fArr m c) transposes_S32x1024_S1024x32_1_0 = y
  by_cases h : j.val < 2048
  · rw [concatenate_pair_apply_left (1 : Fin S1024x2080.rank) (X m c) y
      concatenates_S1024x2048_S1024x32_S1024x2080_d1 (ix2 b j) rfl (ix2 b ⟨j.val, h⟩)
      (fun a => by match a with | ⟨0, _⟩ => rfl | ⟨1, _⟩ => rfl)]
    symm; exact dif_pos h
  · have h2 : j.val - 2048 < 32 := by have := j.isLt; omega
    rw [concatenate_pair_apply_right (1 : Fin S1024x2080.rank) (X m c) y
      concatenates_S1024x2048_S1024x32_S1024x2080_d1 (ix2 b j) rfl rfl (ix2 b ⟨j.val - 2048, h2⟩)
      (fun a ha => by match a with | ⟨0, _⟩ => rfl | ⟨1, _⟩ => exact absurd rfl ha)
      (by show (j.val - 2048) + 2048 = j.val; omega)]
    subst hy
    rw [transpose_apply [1, 0] (fArr m c) transposes_S32x1024_S1024x32_1_0 (ix2 b ⟨j.val - 2048, h2⟩) (ix2 ⟨j.val - 2048, h2⟩ b)
      (fun a => match a with | ⟨0, _⟩ => rfl | ⟨1, _⟩ => rfl)]
    have key : (∑ b' : Fin 1024, Ideal.exp (-(∑ d : Fin 8, Cert.Spec.abs (DiscValue.mT m c (ix3 d ⟨j.val - 2048, h2⟩ b)
          - DiscValue.mT m c (ix3 d ⟨j.val - 2048, h2⟩ b')))) : EReal)
        = Cert.Spec.feat (X m c) (Wt m c) b ⟨j.val - 2048, h2⟩ := by
      unfold Cert.Spec.feat Cert.Spec.dist
      refine Finset.sum_congr rfl fun b' _ => ?_
      refine congrArg (fun z => Ideal.exp (-z)) ?_
      refine Finset.sum_congr rfl fun d _ => ?_
      rw [mT_apply, mT_apply]
    rw [dif_neg h]
    exact (DiscValue.dOut_apply m c ⟨j.val - 2048, h2⟩ b).trans key

end Cert.KernelIdeal.Bridge

end
-- ==== Proof.RefValue.lean ====
/- The reference program's result, at the ideal instance, is the specification function of its two arguments.
   The reference computes m = x · W, reads it as 32 kernels of 8 features, builds the four-axis array of
   differences m[b, 8k+d] − m[b', 8k+d], takes absolute values, sums over the 8 features, negates, exponentiates,
   sums over all rows b', and appends the 32 resulting columns to x. Stage by stage, at one index:
     the product stage at (b, j) is Σ_l x[b, l] · W[l, j];
     the reshape at (b, k, d) is the product at column 8·k + d, since (b·32 + k)·8 + d = b·256 + (8·k + d);
     the two broadcasts (one through a transpose) read m at (b, k, d) and at (b', k, d);
     each sum starts from the zero literal, so it is the bare finite sum;
     the concatenation reads x in columns below 2048 and the feature array 2048 columns further left beyond. -/
import proofs.«101916_j52879637348745_1_alg».proof.Proof.Gen.ReferenceIdeal.Run
import proofs.«101916_j52879637348745_1_alg».proof.Proof.Gen.ReferenceIdeal.Read
import proofs.«101916_j52879637348745_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x : FVec Ideal S1024x2048 .f32) (w : FVec Ideal S2048x256 .f32)

/-- The product stage at row b, column j is the specification's product. -/
theorem v0_at (b : Fin 1024) (j : Fin 256) :
    val_main_v0 (F := Ideal) x w (ix2 b j) = Cert.Spec.prod x w b j := by
  rw [val_main_v0_apply]
  unfold Cert.Spec.prod
  refine Finset.sum_congr rfl fun l _ => ?_
  have el : lidx_main_v0 (ix2 b j) l = ix2 b l :=
    funext fun a => Fin.ext (by match a with | ⟨0, _⟩ => rfl | ⟨1, _⟩ => rfl)
  have er : ridx_main_v0 (ix2 b j) l = ix2 l j :=
    funext fun a => Fin.ext (by match a with | ⟨0, _⟩ => rfl | ⟨1, _⟩ => rfl)
  rw [el, er]

/-- The reshaped product at (b, k, d) is the product at column 8·k + d. -/
theorem v1_at (b : Fin 1024) (k : Fin 32) (d : Fin 8) :
    val_main_v1 (F := Ideal) x w (ix3 b k d) = Cert.Spec.prod x w b (Cert.Spec.col k d) := by
  rw [val_main_v1_apply]
  have e : idx_main_v1 (ix3 b k d) = ix2 b (Cert.Spec.col k d) :=
    funext fun a => Fin.ext (by
      have hb := b.isLt; have hk := k.isLt; have hd := d.isLt
      match a with
      | ⟨0, _⟩ => show ((b.val * 32 + k.val) * 8 + d.val) / 256 = b.val; omega
      | ⟨1, _⟩ => show ((b.val * 32 + k.val) * 8 + d.val) % 256 = 8 * k.val + d.val; omega)
  rw [e, v0_at]

/-- The difference array at (b, k, d, b') is m[b, 8k+d] − m[b', 8k+d]. -/
theorem v7_at (b : Fin 1024) (k : Fin 32) (d : Fin 8) (b' : Fin 1024) :
    val_main_v7 (F := Ideal) x w (ix4 b k d b')
      = Cert.Spec.prod x w b (Cert.Spec.col k d) - Cert.Spec.prod x w b' (Cert.Spec.col k d) := by
  have e5 : idx_main_v2 (idx_main_v5 (ix4 b k d b')) = ix3 b k d :=
    funext fun a => Fin.ext (by match a with | ⟨0, _⟩ => rfl | ⟨1, _⟩ => rfl | ⟨2, _⟩ => rfl)
  have e6 : idx_main_v3 (idx_main_v4 (idx_main_v6 (ix4 b k d b'))) = ix3 b' k d :=
    funext fun a => Fin.ext (by match a with | ⟨0, _⟩ => rfl | ⟨1, _⟩ => rfl | ⟨2, _⟩ => rfl)
  rw [val_main_v7_apply, val_main_v5_apply, val_main_v2_apply, e5, v1_at,
    val_main_v6_apply, val_main_v4_apply, val_main_v3_apply, e6, v1_at]
  rfl

/-- The reduced absolute differences at (b, k, b') are the L1 distance of rows b and b' over kernel k. -/
theorem v9_at (b : Fin 1024) (k : Fin 32) (b' : Fin 1024) :
    val_main_v9 (F := Ideal) x w (ix3 b k b') = Cert.Spec.dist x w k b b' := by
  rw [val_main_v9_apply, val_main_cst_apply, Ideal.ofBits_def, Ideal.ofBits_zero_f32, zero_add]
  unfold Cert.Spec.dist
  refine Finset.sum_congr rfl fun d _ => ?_
  have e : idx_main_v9 (ix3 b k b') d = ix4 b k d b' :=
    funext fun a => Fin.ext (by match a with | ⟨0, _⟩ => rfl | ⟨1, _⟩ => rfl | ⟨2, _⟩ => rfl | ⟨3, _⟩ => rfl)
  rw [e, val_main_v8_apply, v7_at]
  rfl

/-- The second reduction at (b, k) is the minibatch feature of row b and kernel k. -/
theorem v12_at (b : Fin 1024) (k : Fin 32) :
    val_main_v12 (F := Ideal) x w (ix2 b k) = Cert.Spec.feat x w b k := by
  rw [val_main_v12_apply, val_main_cst_0_apply, Ideal.ofBits_def, Ideal.ofBits_zero_f32, zero_add]
  unfold Cert.Spec.feat
  refine Finset.sum_congr rfl fun b' _ => ?_
  have e : idx_main_v12 (ix2 b k) b' = ix3 b k b' :=
    funext fun a => Fin.ext (by match a with | ⟨0, _⟩ => rfl | ⟨1, _⟩ => rfl | ⟨2, _⟩ => rfl)
  rw [e, val_main_v11_apply, val_main_v10_apply, v9_at]
  rfl

/-- The reference's result term at Ideal is the specification of its arguments. -/
theorem result_eq (x : FVec Ideal Cert.ReferenceIdeal.S1024x2048 .f32) (w : FVec Ideal Cert.ReferenceIdeal.S2048x256 .f32) :
    Cert.ReferenceIdeal.Read.val_main_v13 (F := Ideal) x w = Cert.Spec.G x w := by
  funext i
  obtain ⟨b, j, rfl⟩ : ∃ (b : Fin 1024) (j : Fin 2080), i = ix2 b j := ⟨i 0, i 1, eq_ix2 i⟩
  unfold val_main_v13 Cert.Spec.G
  by_cases h : j.val < 2048
  · -- a column of x: the first piece, at the same coordinates
    rw [concatenate_pair_apply_left (1 : Fin S1024x2080.rank) x (val_main_v12 (F := Ideal) x w)
      concatenates_S1024x2048_S1024x32_S1024x2080_d1 (ix2 b j) rfl (ix2 b ⟨j.val, h⟩)
      (fun a => by match a with | ⟨0, _⟩ => rfl | ⟨1, _⟩ => rfl)]
    symm; exact dif_pos h
  · -- a feature column: the second piece, 2048 columns further left
    have h2 : j.val - 2048 < 32 := by have := j.isLt; omega
    rw [concatenate_pair_apply_right (1 : Fin S1024x2080.rank) x (val_main_v12 (F := Ideal) x w)
      concatenates_S1024x2048_S1024x32_S1024x2080_d1 (ix2 b j) rfl rfl (ix2 b ⟨j.val - 2048, h2⟩)
      (fun a ha => by match a with | ⟨0, _⟩ => rfl | ⟨1, _⟩ => exact absurd rfl ha)
      (by show (j.val - 2048) + 2048 = j.val; omega), v12_at]
    symm; exact dif_neg h

end Cert.ReferenceIdeal.RefValue

end
-- ==== Proof.lean ====
/- The certificate that the Pallas minibatch-discrimination kernel equals its jnp reference over the extended
   reals. Both programs compute, from x : 1024 × 2048 and W : 2048 × 256, the array x with 32 columns appended:
   column 2048 + k of row b is Σ_{b'} exp(−Σ_{d<8} |m[b, 8k+d] − m[b', 8k+d]|) with m = x · W (Proof/Spec.lean).
   The kernel program forms m in a first region, block by block with an accumulator carried over the contracted
   axis, relays it transposed to a second region that accumulates the exponentials over blocks of rows b', and
   appends the transposed features to x; the reference does the same with whole-array operations. On the extended
   reals addition is commutative and associative without side conditions, so the blockings and the orders of the
   sums do not matter, and no use is made of the inputs' finiteness.
   The three frames: each program runs to the end, faults nowhere and leaves its arguments as launched — the
   kernel program's from the run of its two regions (Proof/MainRun.lean, and the same text for the program as
   printed), the reference's from its run. The idealization rewrote nothing. The value claim: the kernel's result
   buffer is the specification of its arguments (Proof/Bridge.lean over the two regions' values), and so is the
   reference's (Proof/RefValue.lean). -/
import proofs.«101916_j52879637348745_1_alg».proof.Defs
import proofs.«101916_j52879637348745_1_alg».proof.Proof.Gen.Kernel
import proofs.«101916_j52879637348745_1_alg».proof.Proof.Gen.KernelIdeal
import proofs.«101916_j52879637348745_1_alg».proof.Proof.Gen.ReferenceIdeal
import proofs.«101916_j52879637348745_1_alg».proof.Proof.Gen.Pre_finite_inputs
import proofs.«101916_j52879637348745_1_alg».proof.Proof.Gen.ReferenceIdeal.Run
import proofs.«101916_j52879637348745_1_alg».proof.Proof.MainRun
import proofs.«101916_j52879637348745_1_alg».proof.Proof.BitsMainRun
import proofs.«101916_j52879637348745_1_alg».proof.Proof.Bridge
import proofs.«101916_j52879637348745_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- From memories agreeing on x and W both idealized programs end with the specification of (x, W) in their result
    buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V4 m (Cert.KernelIdeal.Run.outs m) c Cert.KernelIdeal.main_v5,
    Cert.KernelIdeal.Run.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]
  exact (Cert.KernelIdeal.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
